-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_c_5) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x11x192x192x1 : Shape := ⟨6, ![8, 6, 11, 192, 192, 1]⟩
abbrev S8x6x192x192 : Shape := ⟨4, ![8, 6, 192, 192]⟩
abbrev S8x6 : Shape := ⟨2, ![8, 6]⟩
abbrev S_ : Shape := ⟨0, ![]⟩

class Facts : Prop where
  bcast_S_S8x6x11x192x192x1 : S_.BroadcastsInDim S8x6x11x192x192x1 (![] : Fin 0 → Fin S8x6x11x192x192x1.rank)
  reducesTo_S8x6x11x192x192x1_S_d0_1_2_3_4_5 : S8x6x11x192x192x1.ReducesTo [0, 1, 2, 3, 4, 5] S_
  h_S_ : 0 < S_.numel
  bcast_S_S8x6x192x192 : S_.BroadcastsInDim S8x6x192x192 (![] : Fin 0 → Fin S8x6x192x192.rank)
  reducesTo_S8x6x192x192_S_d0_1_2_3 : S8x6x192x192.ReducesTo [0, 1, 2, 3] S_

variable [Facts]

def fn {F : FTy → Type} [FloatOps F] (main_arg0 : FVec F S8x6x11x192x192x1 .f32) (main_arg1 : IVec S8x6x192x192 32) (main_arg2 : IVec S8x6 32) : IVec S_ 1 :=
  let main_v0 : FVec F S8x6x11x192x192x1 .f32 := Host.absf main_arg0
  let main_cst : FVec F S_ .f32 := constant S_ .f32 0x7F800000#32
  let main_v1 : FVec F S8x6x11x192x192x1 .f32 := broadcastInDim S8x6x11x192x192x1 ![] bcast_S_S8x6x11x192x192x1 main_cst
  let main_v2 : IVec S8x6x11x192x192x1 1 := cmpf .olt main_v0 main_v1
  let main_c : IVec S_ 1 := constantI S_ 1 1#1
  let main_v3 : IVec S_ 1 := (fun x v => Host.reduce IntOp.andi x v reducesTo_S8x6x11x192x192x1_S_d0_1_2_3_4_5 h_S_) main_v2 main_c
  let main_c_0 : IVec S_ 32 := constantI S_ 32 0#32
  let main_v4 : IVec S8x6x192x192 32 := broadcastInDim S8x6x192x192 ![] bcast_S_S8x6x192x192 main_c_0
  let main_v5 : IVec S8x6x192x192 1 := cmpi .sge main_arg1 main_v4
  let main_c_1 : IVec S_ 1 := constantI S_ 1 1#1
  let main_v6 : IVec S_ 1 := (fun x v => Host.reduce IntOp.andi x v reducesTo_S8x6x192x192_S_d0_1_2_3 h_S_) main_v5 main_c_1
  let main_v7 : IVec S_ 1 := andi main_v3 main_v6
  let main_c_2 : IVec S_ 32 := constantI S_ 32 10#32
  let main_v8 : IVec S8x6x192x192 32 := broadcastInDim S8x6x192x192 ![] bcast_S_S8x6x192x192 main_c_2
  let main_v9 : IVec S8x6x192x192 1 := cmpi .sle main_arg1 main_v8
  let main_c_3 : IVec S_ 1 := constantI S_ 1 1#1
  let main_v10 : IVec S_ 1 := (fun x v => Host.reduce IntOp.andi x v reducesTo_S8x6x192x192_S_d0_1_2_3 h_S_) main_v9 main_c_3
  let main_v11 : IVec S_ 1 := andi main_v7 main_v10
  main_v11
-- ==== Kernel.lean ====
abbrev S8x6x11x192x192x1 : Shape := ⟨6, ![8, 6, 11, 192, 192, 1]⟩
abbrev S8x6x192x192 : Shape := ⟨4, ![8, 6, 192, 192]⟩
abbrev S8x6 : Shape := ⟨2, ![8, 6]⟩
abbrev S8x6x11x192x192 : Shape := ⟨5, ![8, 6, 11, 192, 192]⟩
abbrev S48x11x36864 : Shape := ⟨3, ![48, 11, 36864]⟩
abbrev S48x36864 : Shape := ⟨2, ![48, 36864]⟩
abbrev S_ : Shape := ⟨0, ![]⟩
abbrev S48x1 : Shape := ⟨2, ![48, 1]⟩
abbrev S48 : Shape := ⟨1, ![48]⟩
abbrev S1 : Shape := ⟨1, ![1]⟩
abbrev S8x11x18432 : Shape := ⟨3, ![8, 11, 18432]⟩
abbrev S8x18432 : Shape := ⟨2, ![8, 18432]⟩
abbrev S8x1 : Shape := ⟨2, ![8, 1]⟩
abbrev S8x1x18432 : Shape := ⟨3, ![8, 1, 18432]⟩
abbrev S8 : Shape := ⟨1, ![8]⟩

abbrev nBuf : Space → Nat
  | .hbm => 33
  | .vmem => 7
  | .smem => 0
  | _ => 0

abbrev bufTy : (tb : Table) → Fin (tcTables nBuf tb) → BufTy
  | .hbm, ⟨0, _⟩ => ⟨S8x6x11x192x192x1, .f32⟩
  | .hbm, ⟨1, _⟩ => ⟨S8x6x192x192, .i32⟩
  | .hbm, ⟨2, _⟩ => ⟨S8x6, .i32⟩
  | .hbm, ⟨3, _⟩ => ⟨S8x6x11x192x192, .f32⟩
  | .hbm, ⟨4, _⟩ => ⟨S48x11x36864, .f32⟩
  | .hbm, ⟨5, _⟩ => ⟨S48x36864, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S48x36864, .i32⟩
  | .hbm, ⟨10, _⟩ => ⟨S48x36864, .i32⟩
  | .hbm, ⟨11, _⟩ => ⟨S_, .i32⟩
  | .hbm, ⟨12, _⟩ => ⟨S48x36864, .i32⟩
  | .hbm, ⟨13, _⟩ => ⟨S48x36864, .i32⟩
  | .hbm, ⟨14, _⟩ => ⟨S48x1, .f32⟩
  | .hbm, ⟨15, _⟩ => ⟨S48, .f32⟩
  | .hbm, ⟨16, _⟩ => ⟨S48, .i32⟩
  | .hbm, ⟨17, _⟩ => ⟨S_, .i32⟩
  | .hbm, ⟨18, _⟩ => ⟨S48, .i32⟩
  | .hbm, ⟨19, _⟩ => ⟨S48, .i1⟩
  | .hbm, ⟨20, _⟩ => ⟨S_, .f32⟩
  | .hbm, ⟨21, _⟩ => ⟨S_, .f32⟩
  | .hbm, ⟨22, _⟩ => ⟨S48, .f32⟩
  | .hbm, ⟨23, _⟩ => ⟨S48, .f32⟩
  | .hbm, ⟨24, _⟩ => ⟨S_, .f32⟩
  | .hbm, ⟨25, _⟩ => ⟨S_, .f32⟩
  | .hbm, ⟨26, _⟩ => ⟨S48, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .i32⟩
  | .local _ .vmem, ⟨0, _⟩ => ⟨S8x11x18432, .f32⟩
  | .local _ .vmem, ⟨1, _⟩ => ⟨S8x11x18432, .f32⟩
  | .local _ .vmem, ⟨2, _⟩ => ⟨S8x18432, .i32⟩
  | .local _ .vmem, ⟨3, _⟩ => ⟨S8x18432, .i32⟩
  | .local _ .vmem, ⟨4, _⟩ => ⟨S8x1, .f32⟩
  | .local _ .vmem, ⟨5, _⟩ => ⟨S8x1, .f32⟩
  | .local _ .vmem, ⟨6, _⟩ => ⟨S8x1, .f32⟩
  | _, _ => ⟨S8x6x11x192x192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_c_0 : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_cst : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_v9 : Ref sig .tc := ⟨.hbm, 23, rfl⟩
abbrev main_call0_cst_2 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v0_0 : Ref sig .tc := ⟨.hbm, 31, rfl⟩
abbrev main_v0_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def k0_cond2 (i : grid0.Coords) : BitVec 1 :=
  let arg1 : BitVec 32 := BitVec.ofNat 32 (i 1).val
  let c1_i32_33 : BitVec 32 := 1#32
  let v77 : BitVec 1 := Scalar.cmpi .eq arg1 c1_i32_33
  let v78 : BitVec 32 := Scalar.extui v77
  let c0_i32_34 : BitVec 32 := 0#32
  let v79 : BitVec 1 := Scalar.cmpi .ne v78 c0_i32_34
  v79

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x11x18432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x18432 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x6x11x192x192x1_S8x6x11x192x192 : S8x6x11x192x192x1.ShapeCasts S8x6x11x192x192
  shapeCasts_S8x6x11x192x192_S48x11x36864 : S8x6x11x192x192.ShapeCasts S48x11x36864
  shapeCasts_S8x6x192x192_S48x36864 : S8x6x192x192.ShapeCasts S48x36864
  bcast_S_S48x36864 : S_.BroadcastsInDim S48x36864 (![] : Fin 0 → Fin S48x36864.rank)
  shapeCasts_S48x1_S48 : S48x1.ShapeCasts S48
  shapeCasts_S8x6_S48 : S8x6.ShapeCasts S48
  bcast_S_S48 : S_.BroadcastsInDim S48 (![] : Fin 0 → Fin S48.rank)
  reducesTo_S48_S_d0 : S48.ReducesTo [0] S_
  h_S_ : 0 < S_.numel
  natLt_1_32 : 1 < 32
  bcast_S_S1 : S_.BroadcastsInDim S1 (![] : Fin 0 → Fin S1.rank)
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x18432_S8x18432_0_0 : ∀ a, (![0, 0] : Fin 2 → Nat) a + S8x18432.size a ≤ S8x18432.size a
  h_S8x18432 : 0 < S8x18432.numel
  shapeCasts_S8x18432_S8x18432 : S8x18432.ShapeCasts S8x18432
  inb_S8x11x18432_S8x1x18432_0_0_0 : ∀ a, (![0, 0, 0] : Fin 3 → Nat) a + S8x1x18432.size a ≤ S8x11x18432.size a
  h_S8x1x18432 : 0 < S8x1x18432.numel
  shapeCasts_S8x1x18432_S8x18432 : S8x1x18432.ShapeCasts S8x18432
  inb_S8x11x18432_S8x1x18432_0_1_0 : ∀ a, (![0, 1, 0] : Fin 3 → Nat) a + S8x1x18432.size a ≤ S8x11x18432.size a
  inb_S8x11x18432_S8x1x18432_0_2_0 : ∀ a, (![0, 2, 0] : Fin 3 → Nat) a + S8x1x18432.size a ≤ S8x11x18432.size a
  inb_S8x11x18432_S8x1x18432_0_3_0 : ∀ a, (![0, 3, 0] : Fin 3 → Nat) a + S8x1x18432.size a ≤ S8x11x18432.size a
  inb_S8x11x18432_S8x1x18432_0_4_0 : ∀ a, (![0, 4, 0] : Fin 3 → Nat) a + S8x1x18432.size a ≤ S8x11x18432.size a
  inb_S8x11x18432_S8x1x18432_0_5_0 : ∀ a, (![0, 5, 0] : Fin 3 → Nat) a + S8x1x18432.size a ≤ S8x11x18432.size a
  inb_S8x11x18432_S8x1x18432_0_6_0 : ∀ a, (![0, 6, 0] : Fin 3 → Nat) a + S8x1x18432.size a ≤ S8x11x18432.size a
  inb_S8x11x18432_S8x1x18432_0_7_0 : ∀ a, (![0, 7, 0] : Fin 3 → Nat) a + S8x1x18432.size a ≤ S8x11x18432.size a
  inb_S8x11x18432_S8x1x18432_0_8_0 : ∀ a, (![0, 8, 0] : Fin 3 → Nat) a + S8x1x18432.size a ≤ S8x11x18432.size a
  inb_S8x11x18432_S8x1x18432_0_9_0 : ∀ a, (![0, 9, 0] : Fin 3 → Nat) a + S8x1x18432.size a ≤ S8x11x18432.size a
  inb_S8x11x18432_S8x1x18432_0_10_0 : ∀ a, (![0, 10, 0] : Fin 3 → Nat) a + S8x1x18432.size a ≤ S8x11x18432.size a
  reduces_S8x18432_S8 : S8x18432.Reduces [1] S8
  shapeCasts_S8_S8x1 : S8.ShapeCasts S8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x11x18432.size a ≤ S48x11x36864.size a
  hwx0_0 : ∀ i : grid0.Coords, EltTy.bits .f32 = 32 ∨ (Rect.block (s := S48x11x36864) S8x11x18432.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x18432.size a ≤ S48x36864.size a
  hwx0_1 : ∀ i : grid0.Coords, EltTy.bits .i32 = 32 ∨ (Rect.block (s := S48x36864) S8x18432.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S48x1.size a
  hwx0_2 : ∀ i : grid0.Coords, EltTy.bits .f32 = 32 ∨ (Rect.block (s := S48x1) S8x1.size (cc0_transform_2 i) (hinb0_2 i)).WholeWords (EltTy.packing .f32)

variable [Facts₀]

abbrev win0_0 : Pipeline.Window sig grid0 :=
  Pipeline.Window.ofSpec (Memref.whole main_call0_v1) S8x11x18432.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S8x18432.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x6x11x192x192x1 : Shape := ⟨6, ![8, 6, 11, 192, 192, 1]⟩
abbrev S8x6x192x192 : Shape := ⟨4, ![8, 6, 192, 192]⟩
abbrev S8x6 : Shape := ⟨2, ![8, 6]⟩
abbrev S8x6x11x192x192 : Shape := ⟨5, ![8, 6, 11, 192, 192]⟩
abbrev S48x11x36864 : Shape := ⟨3, ![48, 11, 36864]⟩
abbrev S48x36864 : Shape := ⟨2, ![48, 36864]⟩
abbrev S48x1x36864 : Shape := ⟨3, ![48, 1, 36864]⟩
abbrev S_ : Shape := ⟨0, ![]⟩
abbrev S48x1x36864x1 : Shape := ⟨4, ![48, 1, 36864, 1]⟩
abbrev S1 : Shape := ⟨1, ![1]⟩
abbrev S1x1x1x1 : Shape := ⟨4, ![1, 1, 1, 1]⟩
abbrev S48 : Shape := ⟨1, ![48]⟩

abbrev nBuf : Space → Nat
  | .hbm => 58
  | .vmem => 0
  | .smem => 0
  | _ => 0

abbrev bufTy : (tb : Table) → Fin (tcTables nBuf tb) → BufTy
  | .hbm, ⟨0, _⟩ => ⟨S8x6x11x192x192x1, .f32⟩
  | .hbm, ⟨1, _⟩ => ⟨S8x6x192x192, .i32⟩
  | .hbm, ⟨2, _⟩ => ⟨S8x6, .i32⟩
  | .hbm, ⟨3, _⟩ => ⟨S8x6x11x192x192, .f32⟩
  | .hbm, ⟨4, _⟩ => ⟨S48x11x36864, .f32⟩
  | .hbm, ⟨5, _⟩ => ⟨S48x36864, .i32⟩
  | .hbm, ⟨6, _⟩ => ⟨S48x1x36864, .i32⟩
  | .hbm, ⟨7, _⟩ => ⟨S_, .i32⟩
  | .hbm, ⟨8, _⟩ => ⟨S48x1x36864, .i32⟩
  | .hbm, ⟨9, _⟩ => ⟨S48x1x36864, .i1⟩
  | .hbm, ⟨10, _⟩ => ⟨S_, .i32⟩
  | .hbm, ⟨11, _⟩ => ⟨S48x1x36864, .i32⟩
  | .hbm, ⟨12, _⟩ => ⟨S48x1x36864, .i32⟩
  | .hbm, ⟨13, _⟩ => ⟨S48x1x36864, .i32⟩
  | .hbm, ⟨14, _⟩ => ⟨S48x1x36864x1, .i32⟩
  | .hbm, ⟨15, _⟩ => ⟨S1, .i32⟩
  | .hbm, ⟨16, _⟩ => ⟨S_, .i32⟩
  | .hbm, ⟨17, _⟩ => ⟨S48x1x36864x1, .i32⟩
  | .hbm, ⟨18, _⟩ => ⟨S48x1x36864x1, .i1⟩
  | .hbm, ⟨19, _⟩ => ⟨S1x1x1x1, .i32⟩
  | .hbm, ⟨20, _⟩ => ⟨S48x1x36864x1, .i32⟩
  | .hbm, ⟨21, _⟩ => ⟨S48x1x36864x1, .i1⟩
  | .hbm, ⟨22, _⟩ => ⟨S48x1x36864x1, .i1⟩
  | .hbm, ⟨23, _⟩ => ⟨S_, .i1⟩
  | .hbm, ⟨24, _⟩ => ⟨S48x1x36864, .i1⟩
  | .hbm, ⟨25, _⟩ => ⟨S48x1x36864, .f32⟩
  | .hbm, ⟨26, _⟩ => ⟨S_, .f32⟩
  | .hbm, ⟨27, _⟩ => ⟨S48x1x36864, .f32⟩
  | .hbm, ⟨28, _⟩ => ⟨S48x1x36864, .f32⟩
  | .hbm, ⟨29, _⟩ => ⟨S48x36864, .f32⟩
  | .hbm, ⟨30, _⟩ => ⟨S48x36864, .f32⟩
  | .hbm, ⟨31, _⟩ => ⟨S_, .f32⟩
  | .hbm, ⟨32, _⟩ => ⟨S48x36864, .f32⟩
  | .hbm, ⟨33, _⟩ => ⟨S48x36864, .f32⟩
  | .hbm, ⟨34, _⟩ => ⟨S_, .f32⟩
  | .hbm, ⟨35, _⟩ => ⟨S48x36864, .f32⟩
  | .hbm, ⟨36, _⟩ => ⟨S48x36864, .f32⟩
  | .hbm, ⟨37, _⟩ => ⟨S48x36864, .f32⟩
  | .hbm, ⟨38, _⟩ => ⟨S48x36864, .f32⟩
  | .hbm, ⟨39, _⟩ => ⟨S_, .f32⟩
  | .hbm, ⟨40, _⟩ => ⟨S48, .f32⟩
  | .hbm, ⟨41, _⟩ => ⟨S48, .i32⟩
  | .hbm, ⟨42, _⟩ => ⟨S_, .i32⟩
  | .hbm, ⟨43, _⟩ => ⟨S48, .i32⟩
  | .hbm, ⟨44, _⟩ => ⟨S48, .i1⟩
  | .hbm, ⟨45, _⟩ => ⟨S_, .f32⟩
  | .hbm, ⟨46, _⟩ => ⟨S_, .f32⟩
  | .hbm, ⟨47, _⟩ => ⟨S48, .f32⟩
  | .hbm, ⟨48, _⟩ => ⟨S48, .f32⟩
  | .hbm, ⟨49, _⟩ => ⟨S_, .f32⟩
  | .hbm, ⟨50, _⟩ => ⟨S_, .f32⟩
  | .hbm, ⟨51, _⟩ => ⟨S48, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S_, .i32⟩
  | _, _ => ⟨S8x6x11x192x192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_c : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩

abbrev nD : Nat := 1
abbrev τ : Topo := Topo.v7x

variable {F : FTy → Type} [FloatOps F]

class Facts₀ : Prop where
  shapeCasts_S8x6x11x192x192x1_S8x6x11x192x192 : S8x6x11x192x192x1.ShapeCasts S8x6x11x192x192
  shapeCasts_S8x6x11x192x192_S48x11x36864 : S8x6x11x192x192.ShapeCasts S48x11x36864
  shapeCasts_S8x6x192x192_S48x36864 : S8x6x192x192.ShapeCasts S48x36864
  bcast_S48x36864_S48x1x36864_0_2 : S48x36864.BroadcastsInDim S48x1x36864 (![0, 2] : Fin 2 → Fin S48x1x36864.rank)
  bcast_S_S48x1x36864 : S_.BroadcastsInDim S48x1x36864 (![] : Fin 0 → Fin S48x1x36864.rank)
  shapeCasts_S48x1x36864_S48x1x36864x1 : S48x1x36864.ShapeCasts S48x1x36864x1
  bcast_S_S48x1x36864x1 : S_.BroadcastsInDim S48x1x36864x1 (![] : Fin 0 → Fin S48x1x36864x1.rank)
  bcast_S1_S1x1x1x1_3 : S1.BroadcastsInDim S1x1x1x1 (![3] : Fin 1 → Fin S1x1x1x1.rank)
  bcast_S1x1x1x1_S48x1x36864x1_0_1_2_3 : S1x1x1x1.BroadcastsInDim S48x1x36864x1 (![0, 1, 2, 3] : Fin 4 → Fin S48x1x36864x1.rank)
  reducesTo_S48x1x36864x1_S48x1x36864_d3 : S48x1x36864x1.ReducesTo [3] S48x1x36864
  h_S_ : 0 < S_.numel
  shapeCasts_S48x1x36864_S48x36864 : S48x1x36864.ShapeCasts S48x36864
  bcast_S_S48x36864 : S_.BroadcastsInDim S48x36864 (![] : Fin 0 → Fin S48x36864.rank)
  reducesTo_S48x36864_S48_d1 : S48x36864.ReducesTo [1] S48
  shapeCasts_S8x6_S48 : S8x6.ShapeCasts S48
  bcast_S_S48 : S_.BroadcastsInDim S48 (![] : Fin 0 → Fin S48.rank)
  reducesTo_S48_S_d0 : S48.ReducesTo [0] S_
  natLt_1_32 : 1 < 32
  bcast_S_S1 : S_.BroadcastsInDim S1 (![] : Fin 0 → Fin S1.rank)
  gather_S48x11x36864_S48x1x36864x1_S48x1x36864_n_1_02_02_1_3_111_wf : GatherDims.WF S48x11x36864 S48x1x36864x1 S48x1x36864 [] [1] [0, 2] [1] [0, 2] 3 ![1, 1, 1]

variable [Facts₀]

def gather_S48x11x36864_S48x1x36864x1_S48x1x36864_n_1_02_02_1_3_111 : GatherDims S48x11x36864 S48x1x36864x1 S48x1x36864 where
  offsetDims := []
  collapsedSliceDims := [1]
  operandBatchingDims := [0, 2]
  startIndicesBatchingDims := [0, 2]
  startIndexMap := [1]
  indexVectorDim := 3
  sliceSizes := ![1, 1, 1]
  wf := gather_S48x11x36864_S48x1x36864x1_S48x1x36864_n_1_02_02_1_3_111_wf

class Facts : Prop extends Facts₀ where

variable [Facts]
-- ==== Proof.FocalMath.lean ====
/-
  The mathematics both programs share, away from any program text.

  Per pixel both compute the focal term of the target class's logit `l`: with `w = 1 - exp l` the kernel forms
  `(0 - ((w·w)·w)·((w·w)·w)) · l` by a multiplication chain and the reference `(-(w ^ 6.0)) · l` by the power function.
  On a real `l` these agree: `w` is real, the real power with exponent `6` is the sixth power, and the rest is ring
  arithmetic in ℝ. (On an infinite `l` they differ — `w = ⊥` gives `⊤` by the chain and `⊥` by the power — which is why
  finiteness of the logits is used.)
  The class is chosen in the kernel by eleven nested selects on `tgt = k` and in the reference by a clamped index;
  for a class word in `[0, 10]` both pick the same logit.
  A sum over 36864 pixels is the sum over the first 18432 plus the sum over the last 18432.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Focal

open Idealize.ShloMosaic

/-! ## The three float literals -/

theorem ofBits_one : Ideal.ofBits .f32 0x3F800000#32 = ((1 : ℝ) : EReal) := by
  simp [Ideal.ofBits, Ideal.ieee, -EReal.coe_mul]; norm_num

theorem ofBits_six : Ideal.ofBits .f32 0x40C00000#32 = ((6 : ℝ) : EReal) := by
  simp [Ideal.ofBits, Ideal.ieee, -EReal.coe_mul]; norm_num

/-! ## The focal term of one logit -/

/-- `1 - exp l`, the literal `1.0` as the programs spell it. -/
def oneMinusExp (l : EReal) : EReal := Ideal.ofBits .f32 0x3F800000#32 - Ideal.exp l

/-- The kernel's term: `(0 - w⁶) · l` with `w⁶` by the chain `((w·w)·w)·((w·w)·w)`. -/
def pixK (l : EReal) : EReal :=
  (Ideal.ofBits .f32 0x00000000#32
    - ((oneMinusExp l * oneMinusExp l) * oneMinusExp l) * ((oneMinusExp l * oneMinusExp l) * oneMinusExp l)) * l

/-- The reference's term: `(-(w ^ 6.0)) · l` with the host's power function. -/
def pixR (l : EReal) : EReal :=
  (-(Ideal.pow (oneMinusExp l) (Ideal.ofBits .f32 0x40C00000#32))) * l

/-- On a real logit the two terms are one real number. -/
theorem pixK_eq_pixR (r : ℝ) : pixK (r : EReal) = pixR (r : EReal) := by
  have h6 : Real.rpow (1 - Real.exp r) 6 = (1 - Real.exp r) ^ 6 := by
    have h := Real.rpow_natCast (1 - Real.exp r) 6
    simpa using h
  have hw : oneMinusExp (r : EReal) = ((1 - Real.exp r : ℝ) : EReal) := by
    unfold oneMinusExp
    rw [ofBits_one, Ideal.exp_coe, ← EReal.coe_sub]
  unfold pixK pixR
  rw [hw, ofBits_six, Ideal.ofBits_zero_f32, Ideal.pow_coe_coe, h6]
  have key : (1 - Real.exp r) * (1 - Real.exp r) * (1 - Real.exp r) * ((1 - Real.exp r) * (1 - Real.exp r) * (1 - Real.exp r))
      = (1 - Real.exp r) ^ 6 := by ring
  simp only [← EReal.coe_mul]
  rw [key, zero_sub]

/-! ## Choosing the class -/

/-- The class a word names, clamped into `[0, 10]` as a gather clamps a start index. -/
def cls (s : BitVec 32) : Fin 11 := ⟨min s.toInt.toNat 10, by omega⟩

/-- The kernel's eleven nested selects, class 10 outermost, the zero logit innermost. -/
def pick (l : Fin 11 → EReal) (s : BitVec 32) : EReal :=
  Scalar.select (IntOp.cmpi .eq s 10#32) (l 10)
  (Scalar.select (IntOp.cmpi .eq s 9#32) (l 9)
  (Scalar.select (IntOp.cmpi .eq s 8#32) (l 8)
  (Scalar.select (IntOp.cmpi .eq s 7#32) (l 7)
  (Scalar.select (IntOp.cmpi .eq s 6#32) (l 6)
  (Scalar.select (IntOp.cmpi .eq s 5#32) (l 5)
  (Scalar.select (IntOp.cmpi .eq s 4#32) (l 4)
  (Scalar.select (IntOp.cmpi .eq s 3#32) (l 3)
  (Scalar.select (IntOp.cmpi .eq s 2#32) (l 2)
  (Scalar.select (IntOp.cmpi .eq s 1#32) (l 1)
  (Scalar.select (IntOp.cmpi .eq s 0#32) (l 0) (Ideal.ofBits .f32 0x00000000#32)))))))))))

/-- For a class word in `[0, 10]` the selects pick that class's logit. -/
theorem pick_eq (l : Fin 11 → EReal) (s : BitVec 32) (h : s.toNat ≤ 10) : pick l s = l (cls s) := by
  have hs : s = BitVec.ofNat 32 s.toNat := by simp
  generalize s.toNat = k at h hs
  subst hs
  interval_cases k <;> rfl

/-! ## Class words in range -/

/-- A word that compares `≥ 0` and `≤ 10` as a signed integer is one of `0 … 10`. -/
theorem toNat_le_ten {s : BitVec 32} (h0 : IntOp.cmpi .sge s 0#32 = 1#1) (h1 : IntOp.cmpi .sle s 10#32 = 1#1) : s.toNat ≤ 10 := by
  simp only [IntOp.cmpi, StableHlo.Predicate.ofBool_eq_one_iff, BitVec.sle, decide_eq_true_eq] at h0 h1
  have e0 : (0#32 : BitVec 32).toInt = 0 := by decide
  have e1 : (10#32 : BitVec 32).toInt = 10 := by decide
  rw [e0] at h0; rw [e1] at h1
  have := BitVec.toInt_eq_toNat_cond s
  have hlt := s.isLt
  split at this <;> omega

/-- Clamping such a word into `[0, 10]` (the kernel's `jnp.clip`) changes nothing. -/
theorem clip_id {s : BitVec 32} (h : s.toNat ≤ 10) : IntOp.minsi 10#32 (IntOp.maxsi 0#32 s) = s := by
  have hs : s = BitVec.ofNat 32 s.toNat := by simp
  generalize s.toNat = k at h hs
  subst hs
  interval_cases k <;> rfl

/-- The reference's wrap of a negative index (`s < 0 ? s + 11 : s`) changes nothing either. -/
theorem wrap_id {s : BitVec 32} (h : s.toNat ≤ 10) :
    Scalar.select (IntOp.cmpi .slt s 0#32) (IntOp.addi s 11#32) s = s := by
  have hs : s = BitVec.ofNat 32 s.toNat := by simp
  generalize s.toNat = k at h hs
  subst hs
  interval_cases k <;> rfl

/-- Such a word passes the reference's bounds test `0 ≤ s ∧ s ≤ 10`. -/
theorem inb_one {s : BitVec 32} (h : s.toNat ≤ 10) :
    IntOp.andi (IntOp.cmpi .sge s 0#32) (IntOp.cmpi .sle s 10#32) = 1#1 := by
  have hs : s = BitVec.ofNat 32 s.toNat := by simp
  generalize s.toNat = k at h hs
  subst hs
  interval_cases k <;> rfl

/-! ## A sum over all pixels as the sum of its two halves -/

theorem sum_halves {M : Type} [AddCommMonoid M] (f : Fin 36864 → M) :
    ∑ k : Fin 36864, f k
      = (∑ q : Fin 18432, f ⟨q.val, by omega⟩) + ∑ q : Fin 18432, f ⟨18432 + q.val, by omega⟩ := by
  have h := Fin.sum_univ_add (a := 18432) (b := 18432) (fun k => f (k.cast (by norm_num)))
  have e : ∑ k : Fin 36864, f k = ∑ k : Fin (18432 + 18432), f (k.cast (by norm_num)) := by
    rfl
  rw [e, h]
  rfl

/-! ## The per-sample sums, as functions of a logits array `[48, 11, 36864]` and a class array `[48, 36864]` -/

open Idealize.ShloMosaic.ValueIdx in
/-- What the kernel accumulates for sample `n`: the focal terms of the first 18432 pixels (grid column 0) plus those of the last
    18432 (grid column 1), the class chosen by the selects on `tg`. -/
def kerSum (lg : (⟨3, ![48, 11, 36864]⟩ : Shape).Idx → EReal) (tg : (⟨2, ![48, 36864]⟩ : Shape).Idx → BitVec 32) (n : Fin 48) : EReal :=
  (∑ q : Fin 18432, pixK (pick (fun k => lg (ix3 n k (⟨q.val, by omega⟩ : Fin 36864))) (tg (ix2 n (⟨q.val, by omega⟩ : Fin 36864)))))
  + ∑ q : Fin 18432, pixK (pick (fun k => lg (ix3 n k (⟨18432 + q.val, by omega⟩ : Fin 36864))) (tg (ix2 n (⟨18432 + q.val, by omega⟩ : Fin 36864))))

open Idealize.ShloMosaic.ValueIdx in
/-- What the reference sums for sample `n`: from the literal `0.0`, over all 36864 pixels, the focal term (by the power
    function) of the logit of the class `sg` names, clamped as the gather clamps it. -/
def refSum (lg : (⟨3, ![48, 11, 36864]⟩ : Shape).Idx → EReal) (sg : (⟨2, ![48, 36864]⟩ : Shape).Idx → BitVec 32) (n : Fin 48) : EReal :=
  Ideal.ofBits .f32 0x00000000#32 + ∑ k : Fin 36864, pixR (lg (ix3 n (cls (sg (ix2 n k))) k))

open Idealize.ShloMosaic.ValueIdx in
/-- THE BRIDGE, for one sample: on real logits and class words in `[0, 10]` the kernel's two half sums over the clamped
    classes are the reference's one sum. -/
theorem kerSum_eq_refSum (lg : (⟨3, ![48, 11, 36864]⟩ : Shape).Idx → EReal) (sg tg : (⟨2, ![48, 36864]⟩ : Shape).Idx → BitVec 32)
    (hfin : ∀ i, ∃ r : ℝ, lg i = (r : EReal)) (hrange : ∀ j, (sg j).toNat ≤ 10)
    (htg : ∀ j, tg j = IntOp.minsi 10#32 (IntOp.maxsi 0#32 (sg j))) (n : Fin 48) :
    kerSum lg tg n = refSum lg sg n := by
  have hterm : ∀ p : Fin 36864, pixK (pick (fun k => lg (ix3 n k p)) (tg (ix2 n p))) = pixR (lg (ix3 n (cls (sg (ix2 n p))) p)) := by
    intro p
    rw [htg, clip_id (hrange _), pick_eq _ _ (hrange _)]
    obtain ⟨r, hr⟩ := hfin (ix3 n (cls (sg (ix2 n p))) p)
    rw [hr]
    exact pixK_eq_pixR r
  unfold kerSum refSum
  rw [Ideal.ofBits_zero_f32, zero_add, sum_halves]
  exact congrArg₂ (· + ·) (Finset.sum_congr rfl fun q _ => hterm (⟨q.val, by omega⟩ : Fin 36864))
    (Finset.sum_congr rfl fun q _ => hterm (⟨18432 + q.val, by omega⟩ : Fin 36864))

end Cert.Focal

end
-- ==== Proof.Shared.lean ====
/-
  What the kernel's program and the reference share, named once: the logits array `[48, 11, 36864]` and the class array
  `[48, 36864]` both programs reshape their arguments into, the kernel's clamp of the classes into `[0, 10]`, and the masked mean
  both programs end with — the per-sample sums where the label is non-zero, added up and divided by the number of such samples.
  The mean is carried as ONE function of the per-sample sums: the two programs' results are equal as soon as their per-sample
  sums are, and it is never opened.
-/
import proofs.«406488_j60430189855042_3_alg».proof.Proof.Gen.KernelIdeal
import proofs.«406488_j60430189855042_3_alg».proof.Proof.FocalMath

noncomputable section

namespace Cert.Focal

open Idealize.ShloMosaic Cert.KernelIdeal Cert.KernelIdeal.Gen

/-- The logits as both programs read them: `out_seg[..., 0]` reshaped to samples × classes × pixels. -/
def logits (x0 : FVec Ideal S8x6x11x192x192x1 .f32) : FVec Ideal S48x11x36864 .f32 :=
  shapeCast _ (shapeCast _ x0 shapeCasts_S8x6x11x192x192x1_S8x6x11x192x192) shapeCasts_S8x6x11x192x192_S48x11x36864

/-- The class indices reshaped to samples × pixels. -/
def segs (x1 : IVec S8x6x192x192 32) : IVec S48x36864 32 :=
  shapeCast _ x1 shapeCasts_S8x6x192x192_S48x36864

/-- The kernel's `jnp.clip(·, 0, 10)` of the class indices: `min 10 (max 0 ·)`. -/
def clipped (sg : IVec S48x36864 32) : IVec S48x36864 32 :=
  minsi (broadcastInDim S48x36864 ![] bcast_S_S48x36864 (id (constantI S_ 32 10#32)))
    (maxsi (broadcastInDim S48x36864 ![] bcast_S_S48x36864 (id (constantI S_ 32 0#32))) sg)

/-- The masked mean: `sum(where(label ≠ 0, ps, 0)) / float(sum(label ≠ 0))`, as a one-element array. -/
def tail (ps : FVec Ideal S48 .f32) (lab : IVec S8x6 32) : FVec Ideal S1 .f32 :=
  broadcastInDim S1 ![] bcast_S_S1
    (Host.divf (F := Ideal)
      (Host.reduceAdd (F := Ideal)
        (select (cmpi .ne (shapeCast _ lab shapeCasts_S8x6_S48) (broadcastInDim S48 ![] bcast_S_S48 (constantI S_ 32 0#32)))
          ps (broadcastInDim S48 ![] bcast_S_S48 (id (constant (F := Ideal) S_ .f32 0x00000000#32))))
        (constant (F := Ideal) S_ .f32 0x00000000#32) reducesTo_S48_S_d0 h_S_)
      (sitofp (F := Ideal) .f32
        (Host.reduce IntOp.addi
          (extui 32 (cmpi .ne (shapeCast _ lab shapeCasts_S8x6_S48) (broadcastInDim S48 ![] bcast_S_S48 (constantI S_ 32 0#32))) natLt_1_32)
          (constantI S_ 32 0#32) reducesTo_S48_S_d0 h_S_)))

/-- The clamp at an index. -/
theorem clipped_apply (sg : IVec S48x36864 32) (j : S48x36864.Idx) :
    clipped sg j = IntOp.minsi 10#32 (IntOp.maxsi 0#32 (sg j)) := rfl

end Cert.Focal

end
-- ==== Proof.KernelArr.lean ====
/-
  The kernel's output array after the region.

  Per grid point the body adds, row by row, the sum over the block's 18432 pixels of the focal term of the chosen logit into
  an accumulator that pixel tile 0 zeroes and pixel tile 1 copies to the output block. So after a point of pixel tile 1 the
  output block holds, at row `a`, `(0 + S₀) + S₁` with `Sⱼ` the sum over pixel tile `j` of sample `8·(t/2) + a`; the six
  output blocks tile the array `[48, 1]`.
-/
import proofs.«406488_j60430189855042_3_alg».proof.Proof.Gen.KernelIdeal.Frame
import proofs.«406488_j60430189855042_3_alg».proof.Proof.Shared
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

namespace Arr

/-! ## What one grid point leaves, as a function of its two input blocks -/

section Pieces
variable {F : FTy → Type} [FloatOps F]

theorem hz : (![0, 0] : Fin 2 → Nat) = fun _ => 0 := funext fun a => by fin_cases a <;> rfl

/-- The rows of class `k` of a logits block, as the body loads them. -/
abbrev cl0 (x0 : Vec F S8x11x18432 .f32) : Vec F S8x1x18432 .f32 := View.ld x0 (Rect.unit (s := S8x11x18432) ![0, 0, 0] S8x1x18432.size inb_S8x11x18432_S8x1x18432_0_0_0)
abbrev cl1 (x0 : Vec F S8x11x18432 .f32) : Vec F S8x1x18432 .f32 := View.ld x0 (Rect.unit (s := S8x11x18432) ![0, 1, 0] S8x1x18432.size inb_S8x11x18432_S8x1x18432_0_1_0)
abbrev cl2 (x0 : Vec F S8x11x18432 .f32) : Vec F S8x1x18432 .f32 := View.ld x0 (Rect.unit (s := S8x11x18432) ![0, 2, 0] S8x1x18432.size inb_S8x11x18432_S8x1x18432_0_2_0)
abbrev cl3 (x0 : Vec F S8x11x18432 .f32) : Vec F S8x1x18432 .f32 := View.ld x0 (Rect.unit (s := S8x11x18432) ![0, 3, 0] S8x1x18432.size inb_S8x11x18432_S8x1x18432_0_3_0)
abbrev cl4 (x0 : Vec F S8x11x18432 .f32) : Vec F S8x1x18432 .f32 := View.ld x0 (Rect.unit (s := S8x11x18432) ![0, 4, 0] S8x1x18432.size inb_S8x11x18432_S8x1x18432_0_4_0)
abbrev cl5 (x0 : Vec F S8x11x18432 .f32) : Vec F S8x1x18432 .f32 := View.ld x0 (Rect.unit (s := S8x11x18432) ![0, 5, 0] S8x1x18432.size inb_S8x11x18432_S8x1x18432_0_5_0)
abbrev cl6 (x0 : Vec F S8x11x18432 .f32) : Vec F S8x1x18432 .f32 := View.ld x0 (Rect.unit (s := S8x11x18432) ![0, 6, 0] S8x1x18432.size inb_S8x11x18432_S8x1x18432_0_6_0)
abbrev cl7 (x0 : Vec F S8x11x18432 .f32) : Vec F S8x1x18432 .f32 := View.ld x0 (Rect.unit (s := S8x11x18432) ![0, 7, 0] S8x1x18432.size inb_S8x11x18432_S8x1x18432_0_7_0)
abbrev cl8 (x0 : Vec F S8x11x18432 .f32) : Vec F S8x1x18432 .f32 := View.ld x0 (Rect.unit (s := S8x11x18432) ![0, 8, 0] S8x1x18432.size inb_S8x11x18432_S8x1x18432_0_8_0)
abbrev cl9 (x0 : Vec F S8x11x18432 .f32) : Vec F S8x1x18432 .f32 := View.ld x0 (Rect.unit (s := S8x11x18432) ![0, 9, 0] S8x1x18432.size inb_S8x11x18432_S8x1x18432_0_9_0)
abbrev cl10 (x0 : Vec F S8x11x18432 .f32) : Vec F S8x1x18432 .f32 := View.ld x0 (Rect.unit (s := S8x11x18432) ![0, 10, 0] S8x1x18432.size inb_S8x11x18432_S8x1x18432_0_10_0)

/-- The chosen logit of every pixel of a block: the eleven nested selects. -/
def chosen (x0 : Vec F S8x11x18432 .f32) (x1 : Vec F S8x18432 .i32) : FVec F S8x18432 .f32 :=
  k0_pay5 (k0_pay3 x1) (k0_pay4 x1 (cl0 x0) (cl1 x0) (cl2 x0) (cl3 x0) (cl4 x0)) (cl5 x0) (cl6 x0) (cl7 x0) (cl8 x0) (cl9 x0) (cl10 x0)

/-- The sixth power of `1 - exp` of the chosen logit, by the multiplication chain. -/
def sixth (x0 : Vec F S8x11x18432 .f32) (x1 : Vec F S8x18432 .i32) : FVec F S8x18432 .f32 :=
  k0_pay6 (k0_pay3 x1) (k0_pay4 x1 (cl0 x0) (cl1 x0) (cl2 x0) (cl3 x0) (cl4 x0)) (cl5 x0) (cl6 x0) (cl7 x0) (cl8 x0) (cl9 x0) (cl10 x0)

/-- One grid point's partial sums: per row, the sum over the block's 18432 pixels of `(0 - sixth) * chosen`. -/
def partialSum (x0 : Vec F S8x11x18432 .f32) (x1 : Vec F S8x18432 .i32) : Vec F S8x1 .f32 :=
  shapeCast S8x1
    (multiReduction .add [1] S8 (mulf (subf (broadcast S8x18432 (Scalar.ofBits .f32 0x00000000#32)) (sixth x0 x1)) (chosen x0 x1))
      0x00000000#32 reduces_S8x18432_S8 (.inl rfl) rfl)
    shapeCasts_S8_S8x1

/-- The zero block the first pixel tile stores. -/
abbrev zeroBlk : Vec F S8x1 .f32 := broadcast S8x1 (Scalar.ofBits .f32 0x00000000#32)

/-- At pixel tile 1 the scratch ends at what it held plus the point's partial sums. -/
theorem soutB_eq (c : Dev nD) (i : grid0.Coords) (arg2 : Memref sig .tc .vmem S8x11x18432 .f32) (harg2 : arg2.IsWhole) (arg3 : Memref sig .tc .vmem S8x18432 .i32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x11x18432 .f32) (x1 : Vec F S8x18432 .i32) (xs0 : Vec F S8x1 .f32) :
    sout0_B_0 c i arg2 harg2 arg3 harg3 arg4 harg4 arg5 harg5 hc0 hc1 x0 x1 xs0 = addf xs0 (partialSum x0 x1) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  unfold k0_pay1
  simp only [View.readAt_eq_ld, harg2.read_unread, harg3.read_unread, harg5.read_unread, View.ld_unit_zero (S := S8x18432) hz, View.ld_unit_zero (S := S8x1) hz, shapeCast_self]
  rfl

/-- At pixel tile 1 the output block is stored with the same value. -/
theorem outB_eq (c : Dev nD) (i : grid0.Coords) (arg2 : Memref sig .tc .vmem S8x11x18432 .f32) (harg2 : arg2.IsWhole) (arg3 : Memref sig .tc .vmem S8x18432 .i32) (harg3 : arg3.IsWhole) (arg4 : Memref sig .tc .vmem S8x1 .f32) (harg4 : arg4.IsWhole) (arg5 : Memref sig .tc .vmem S8x1 .f32) (harg5 : arg5.IsWhole) (hc0 : ¬cond0_0 i) (hc1 : cond0_1 i)
    (x0 : Vec F S8x11x18432 .f32) (x1 : Vec F S8x18432 .i32) (xs0 : Vec F S8x1 .f32) :
    out0_B_2 c i arg2 harg2 arg3 harg3 arg4 harg4 arg5 harg5 hc0 hc1 x0 x1 xs0 = addf xs0 (partialSum x0 x1) := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero hz, View.readCov_unit_zero (S := S8x1) _ hz]
  unfold k0_pay1
  simp only [View.readAt_eq_ld, harg2.read_unread, harg3.read_unread, harg5.read_unread, View.ld_unit_zero (S := S8x18432) hz, View.ld_unit_zero (S := S8x1) hz, shapeCast_self]
  rfl

/-- At pixel tile 0 the scratch is zeroed, read back, and ends at zero plus the point's partial sums. -/
theorem soutA_eq (c : Dev nD) (i : grid0.Coords) (arg2 : Memref sig .tc .vmem S8x11x18432 .f32) (harg2 : arg2.IsWhole) (arg3 : Memref sig .tc .vmem S8x18432 .i32) (harg3 : arg3.IsWhole) (arg4 : Memref sig .tc .vmem S8x1 .f32) (harg4 : arg4.IsWhole) (arg5 : Memref sig .tc .vmem S8x1 .f32) (harg5 : arg5.IsWhole) (hc0 : cond0_0 i) (hc1 : ¬cond0_1 i)
    (x0 : Vec F S8x11x18432 .f32) (x1 : Vec F S8x18432 .i32) :
    sout0_A_0 c i arg2 harg2 arg3 harg3 arg4 harg4 arg5 harg5 hc0 hc1 x0 x1 = addf zeroBlk (partialSum x0 x1) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x1) hz, View.readCov_unit_zero (S := S8x1) _ hz]
  unfold k0_pay1 k0_pay2
  simp only [View.readAt_eq_ld, harg2.read_unread, harg3.read_unread, View.ld_unit_zero (S := S8x18432) hz, shapeCast_self]
  rfl

end Pieces

/-! ## One point's partial sums read at a row, over the extended reals -/

section AtIdeal
open Idealize.ShloMosaic.ValueIdx

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The rows of class `k` of a logits block, loaded, read at `(a, 0, q)`: the block at `(a, k, q)`. -/
theorem slab_apply {α : Type} (x0 : S8x11x18432.Idx → α) (o : Nat) (inb : ∀ a, (![0, o, 0] : Fin 3 → Nat) a + S8x1x18432.size a ≤ S8x11x18432.size a)
    (k : Fin 11) (hk : k.val = o) (a : Fin 8) (q : Fin 18432) :
    x0 ((Rect.unit (s := S8x11x18432) ![0, o, 0] S8x1x18432.size inb).idx (ix3 a (0 : Fin 1) q)) = x0 (ix3 a k q) :=
  congrArg x0 (funext fun d => Fin.ext (by
    match d with
    | ⟨0, _⟩ => show 0 + 1 * a.val = a.val; omega
    | ⟨1, _⟩ => show o + 1 * 0 = k.val; omega
    | ⟨2, _⟩ => show 0 + 1 * q.val = q.val; omega))

/-- The chosen logit of pixel `(a, q)` of a block is the eleven nested selects on the pixel's class word. -/
theorem chosen_apply (x0 : Vec Ideal S8x11x18432 .f32) (x1 : Vec Ideal S8x18432 .i32) (a : Fin 8) (q : Fin 18432) :
    chosen x0 x1 (ix2 a q) = Cert.Focal.pick (fun k => x0 (ix3 a k q)) (x1 (ix2 a q)) := by
  have e (o : Nat) (inb : ∀ a, (![0, o, 0] : Fin 3 → Nat) a + S8x1x18432.size a ≤ S8x11x18432.size a) (k : Fin 11) (hk : k.val = o) :
      shapeCast S8x18432 (View.ld x0 (Rect.unit (s := S8x11x18432) ![0, o, 0] S8x1x18432.size inb)) shapeCasts_S8x1x18432_S8x18432 (ix2 a q)
        = x0 (ix3 a k q) :=
    (shapeCast_a1b_ab_apply _ _ a q).trans (slab_apply x0 o inb k hk a q)
  unfold chosen k0_pay5 k0_pay4 k0_pay3 Cert.Focal.pick
  simp only [select_apply, shapeCast_self]
  rw [e 0 _ 0 rfl, e 1 _ 1 rfl, e 2 _ 2 rfl, e 3 _ 3 rfl, e 4 _ 4 rfl, e 5 _ 5 rfl, e 6 _ 6 rfl, e 7 _ 7 rfl, e 8 _ 8 rfl, e 9 _ 9 rfl, e 10 _ 10 rfl]
  rfl

/-- The summand of pixel `(a, q)` is the focal term of its chosen logit. -/
theorem term_apply (x0 : Vec Ideal S8x11x18432 .f32) (x1 : Vec Ideal S8x18432 .i32) (a : Fin 8) (q : Fin 18432) :
    mulf (subf (broadcast S8x18432 (Scalar.ofBits (F := Ideal) .f32 0x00000000#32)) (sixth x0 x1)) (chosen x0 x1) (ix2 a q)
      = Cert.Focal.pixK (Cert.Focal.pick (fun k => x0 (ix3 a k q)) (x1 (ix2 a q))) := by
  rw [← chosen_apply]
  rfl

/-- One grid point's partial sum of row `a`: the sum over the block's pixels of the focal terms. -/
theorem partialSum_apply (x0 : Vec Ideal S8x11x18432 .f32) (x1 : Vec Ideal S8x18432 .i32) (a : Fin 8) (u : Fin 1) :
    partialSum x0 x1 (ix2 a u) = ∑ q : Fin 18432, Cert.Focal.pixK (Cert.Focal.pick (fun k => x0 (ix3 a k q)) (x1 (ix2 a q))) := by
  unfold partialSum
  refine (shapeCast_a_a1_apply _ _ a u).trans ?_
  refine (Ideal.multiReduction_add_single _ 0x00000000#32 reduces_S8x18432_S8 (.inl rfl) rfl (ix1 a)).trans ?_
  refine Finset.sum_congr rfl fun q _ => ?_
  have hl : reduces_S8x18432_S8.lift (ix1 a) q = ix2 a q := funext fun d => Fin.ext (by
    match d with
    | ⟨0, _⟩ => rfl
    | ⟨1, _⟩ => rfl)
  rw [hl]
  exact term_apply x0 x1 a q

end AtIdeal

/-! ## The blocks as parts of the arrays, and the output block after a point of pixel tile 1 -/

section Region
open Idealize.ShloMosaic.ValueIdx

/-- The logits block and the class block of a grid point, and the two arrays, by their literal types. -/
abbrev lblk (c : Dev nD) (t : Fin cfg0.N) : Vec Ideal S8x11x18432 .f32 := iblk m c 0 t
abbrev tblk (c : Dev nD) (t : Fin cfg0.N) : Vec Ideal S8x18432 .i32 := iblk m c 1 t
abbrev larr (c : Dev nD) : Vec Ideal S48x11x36864 .f32 := V m c main_call0_v1
abbrev tarr (c : Dev nD) : Vec Ideal S48x36864 .i32 := V m c main_call0_v3

/-- The logits block of point `t` is rows `8·(t/2) …`, every class, pixels `18432·(t%2) …` of the logits array. -/
theorem lblk_apply (c : Dev nD) (t : Fin cfg0.N) (a : Fin 8) (k : Fin 11) (q : Fin 18432) (n : Fin 48) (p : Fin 36864)
    (hn : n.val = 8 * (t.val / 2) + a.val) (hp : p.val = 18432 * (t.val % 2) + q.val) :
    lblk m c t (ix3 a k q) = larr m c (ix3 n k p) := by
  have hi : win0_0.index t 0 = t.val / 2 ∧ win0_0.index t 1 = 0 ∧ win0_0.index t 2 = t.val % 2 :=
    (by decide +kernel : ∀ t : Fin grid0.N, win0_0.index t 0 = t.val / 2 ∧ win0_0.index t 1 = 0 ∧ win0_0.index t 2 = t.val % 2) t
  unfold lblk iblk
  rw [View.read_apply]
  show V m c main_call0_v1 _ = V m c main_call0_v1 _
  congr 1
  funext d
  apply Fin.ext
  match d with
  | ⟨0, _⟩ => show win0_0.index t 0 * 8 + 1 * a.val = n.val; rw [hi.1, hn]; omega
  | ⟨1, _⟩ => show win0_0.index t 1 * 11 + 1 * k.val = k.val; rw [hi.2.1]; omega
  | ⟨2, _⟩ => show win0_0.index t 2 * 18432 + 1 * q.val = p.val; rw [hi.2.2, hp]; omega

/-- The class block of point `t` is rows `8·(t/2) …`, pixels `18432·(t%2) …` of the class array. -/
theorem tblk_apply (c : Dev nD) (t : Fin cfg0.N) (a : Fin 8) (q : Fin 18432) (n : Fin 48) (p : Fin 36864)
    (hn : n.val = 8 * (t.val / 2) + a.val) (hp : p.val = 18432 * (t.val % 2) + q.val) :
    tblk m c t (ix2 a q) = tarr m c (ix2 n p) := by
  have hi : win0_1.index t 0 = t.val / 2 ∧ win0_1.index t 1 = t.val % 2 :=
    (by decide +kernel : ∀ t : Fin grid0.N, win0_1.index t 0 = t.val / 2 ∧ win0_1.index t 1 = t.val % 2) t
  unfold tblk iblk
  rw [View.read_apply]
  show V m c main_call0_v3 _ = V m c main_call0_v3 _
  congr 1
  funext d
  apply Fin.ext
  match d with
  | ⟨0, _⟩ => show win0_1.index t 0 * 8 + 1 * a.val = n.val; rw [hi.1, hn]; omega
  | ⟨1, _⟩ => show win0_1.index t 1 * 18432 + 1 * q.val = p.val; rw [hi.2, hp]; omega

/-- After a point of pixel tile 0 the scratch holds zero plus the point's partial sums. -/
theorem scratch_even (c : Dev nD) (t : Fin cfg0.N) (h0 : t.val % 2 = 0) :
    (outsAt0 m c t.val t.isLt).2 = addf zeroBlk (partialSum (lblk m c t) (tblk m c t)) := by
  have h1 : ¬t.val % 2 = 1 := by omega
  rw [outsAt0_A m c t h0 h1]
  dsimp only
  exact soutA_eq (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- The point before a point of pixel tile 1. -/
def prev (t : Fin cfg0.N) : Fin cfg0.N := ⟨t.val - 1, Nat.lt_of_le_of_lt (Nat.sub_le _ _) t.isLt⟩

/-- After a point of pixel tile 1 the output block holds zero plus the partial sums of the point before plus the point's own. -/
theorem out_odd (c : Dev nD) (t : Fin cfg0.N) (h1 : t.val % 2 = 1) :
    (outsAt0 m c t.val t.isLt).1
      = addf (addf zeroBlk (partialSum (lblk m c (prev t)) (tblk m c (prev t)))) (partialSum (lblk m c t) (tblk m c t)) := by
  have h0 : ¬t.val % 2 = 0 := by omega
  have hp : (prev t).val % 2 = 0 := by show (t.val - 1) % 2 = 0; omega
  rw [outsAt0_B m c t h0 h1]
  dsimp only
  refine (outB_eq (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  exact congrArg (fun z => addf z (partialSum (lblk m c t) (tblk m c t))) (scratch_even m c (prev t) hp)

/-- Sample row `8·(t/2) + a`. -/
def rowOf (t : Fin cfg0.N) (a : Fin 8) : Fin 48 :=
  ⟨8 * (t.val / 2) + a.val, by have := t.isLt; have hN : cfg0.N = 12 := N_0; omega⟩

/-- The output block after a point of pixel tile 1, at row `a`: the sample's sum over both pixel tiles. -/
theorem out_odd_apply (c : Dev nD) (t : Fin cfg0.N) (h1 : t.val % 2 = 1) (a : Fin 8) (u : Fin 1) :
    (outsAt0 m c t.val t.isLt).1 (ix2 a u) = Cert.Focal.kerSum (larr m c) (tarr m c) (rowOf t a) := by
  have hpv : (prev t).val = t.val - 1 := rfl
  refine (congrFun (out_odd m c t h1) (ix2 a u)).trans ?_
  show (Ideal.ofBits .f32 0x00000000#32 + partialSum (lblk m c (prev t)) (tblk m c (prev t)) (ix2 a u))
      + partialSum (lblk m c t) (tblk m c t) (ix2 a u) = _
  refine (congrArg₂ (fun x y => (Ideal.ofBits .f32 0x00000000#32 + x) + y)
    (partialSum_apply (lblk m c (prev t)) (tblk m c (prev t)) a u) (partialSum_apply (lblk m c t) (tblk m c t) a u)).trans ?_
  rw [Ideal.ofBits_zero_f32, zero_add]
  unfold Cert.Focal.kerSum
  refine congrArg₂ (· + ·) (Finset.sum_congr rfl fun q _ => ?_) (Finset.sum_congr rfl fun q _ => ?_)
  · have hn : (rowOf t a).val = 8 * ((prev t).val / 2) + a.val := by show 8 * (t.val / 2) + a.val = _; rw [hpv]; omega
    have hq : ((⟨q.val, by omega⟩ : Fin 36864)).val = 18432 * ((prev t).val % 2) + q.val := by show q.val = _; rw [hpv]; omega
    refine congrArg Cert.Focal.pixK (congrArg₂ Cert.Focal.pick (funext fun k => ?_) ?_)
    · exact lblk_apply m c (prev t) a k q (rowOf t a) ⟨q.val, by omega⟩ hn hq
    · exact tblk_apply m c (prev t) a q (rowOf t a) ⟨q.val, by omega⟩ hn hq
  · have hn : (rowOf t a).val = 8 * (t.val / 2) + a.val := rfl
    have hq : ((⟨18432 + q.val, by omega⟩ : Fin 36864)).val = 18432 * (t.val % 2) + q.val := by show 18432 + q.val = _; omega
    refine congrArg Cert.Focal.pixK (congrArg₂ Cert.Focal.pick (funext fun k => ?_) ?_)
    · exact lblk_apply m c t a k q (rowOf t a) ⟨18432 + q.val, by omega⟩ hn hq
    · exact tblk_apply m c t a q (rowOf t a) ⟨18432 + q.val, by omega⟩ hn hq

end Region

end Arr

/-- The per-sample sums as contents of the kernel's output array `[48, 1]`: sample `n`'s sum at `(n, 0)`, from the logits and
    the clamped classes as the region finds them. -/
abbrev result (c : Dev nD) : Buf (Elt Ideal) ((c : Thread nD τ).loc main_call0_v4) :=
  fun y => Cert.Focal.kerSum (V m c main_call0_v1) (V m c main_call0_v3) (y 0)

namespace Arr

section Blocks
open Idealize.ShloMosaic.ValueIdx

/-- The output block of point `t` is rows `8·(t/2) …` of the output array. -/
theorem result_blk_apply (c : Dev nD) (t : Fin cfg0.N) (a : Fin 8) (u : Fin 1) :
    (((cfg0.win 2).blk t).view.read (Elt Ideal) (result m c) : Vec Ideal S8x1 .f32) (ix2 a u)
      = Cert.Focal.kerSum (larr m c) (tarr m c) (rowOf t a) := by
  have hi : win0_2.index t 0 = t.val / 2 :=
    (by decide +kernel : ∀ t : Fin grid0.N, win0_2.index t 0 = t.val / 2) t
  rw [View.read_apply]
  show Cert.Focal.kerSum (V m c main_call0_v1) (V m c main_call0_v3) _ = _
  congr 1
  apply Fin.ext
  show win0_2.index t 0 * 8 + 1 * a.val = 8 * (t.val / 2) + a.val
  rw [hi]; omega

/-- What a point of pixel tile 1 writes back is its block of `result`. -/
theorem flushed_eq (c : Dev nD) (t : Fin cfg0.N) (hf : (cfg0.win 2).flush t = true) :
    (dats (F := Ideal) m 0 c).flushed 2 t = ((cfg0.win 2).blk t).view.read (Elt Ideal) (result m c) := by
  have h1 : t.val % 2 = 1 := (flush0_2 t).mp hf
  show (cfg0.win 2).cut (grid0.coords t) ((dats (F := Ideal) m 0 c).after 2 t) = _
  rw [after0_2]
  have e1 : (outsAt0 m c t.val t.isLt).1 = fun y : S8x1.Idx => Cert.Focal.kerSum (larr m c) (tarr m c) (rowOf t (y 0)) :=
    funext fun y => by
      obtain ⟨a, u, rfl⟩ : ∃ a u, y = ix2 a u := ⟨y 0, y 1, eq_ix2 y⟩
      exact out_odd_apply m c t h1 a u
  have e2 : (((cfg0.win 2).blk t).view.read (Elt Ideal) (result m c) : Vec Ideal S8x1 .f32)
      = fun y : S8x1.Idx => Cert.Focal.kerSum (larr m c) (tarr m c) (rowOf t (y 0)) :=
    funext fun y => by
      obtain ⟨a, u, rfl⟩ : ∃ a u, y = ix2 a u := ⟨y 0, y 1, eq_ix2 y⟩
      exact result_blk_apply m c t a u
  exact e1.trans e2.symm

end Blocks

end Arr

/-- After the region the output array holds them. -/
theorem final (c : Dev nD) : (dats (F := Ideal) m 0 c).arrAt 2 cfg0.N = result m c :=
  (dats (F := Ideal) m 0 c).arrAt_eq_of_cover 2 (result m c) (Arr.flushed_eq m c) fun i => by
    have hN : cfg0.N = 12 := N_0
    have h0 : (i 0 : Nat) < 48 := (i 0).isLt
    have h1 : (i 1 : Nat) < 1 := (i 1).isLt
    have ht : 2 * ((i 0 : Nat) / 8) + 1 < cfg0.N := by rw [hN]; omega
    have hi : ∀ t : Fin cfg0.N, win0_2.index t 0 = t.val / 2 ∧ win0_2.index t 1 = 0 :=
      (by decide +kernel : ∀ t : Fin grid0.N, win0_2.index t 0 = t.val / 2 ∧ win0_2.index t 1 = 0)
    refine ⟨⟨2 * ((i 0 : Nat) / 8) + 1, ht⟩, (flush0_2 _).mpr (by show (2 * ((i 0 : Nat) / 8) + 1) % 2 = 1; omega), ?_⟩
    show i ∈ ((View.whole main_call0_v4).slice (win0_2.rect ⟨2 * ((i 0 : Nat) / 8) + 1, ht⟩)).set
    rw [View.set_slice_whole, Rect.mem_set_unit]
    intro a
    match a with
    | ⟨0, _⟩ =>
      show win0_2.index ⟨2 * ((i 0 : Nat) / 8) + 1, ht⟩ 0 * 8 ≤ (i 0 : Nat) ∧ (i 0 : Nat) < win0_2.index ⟨2 * ((i 0 : Nat) / 8) + 1, ht⟩ 0 * 8 + 8
      rw [(hi _).1]
      show (2 * ((i 0 : Nat) / 8) + 1) / 2 * 8 ≤ (i 0 : Nat) ∧ (i 0 : Nat) < (2 * ((i 0 : Nat) / 8) + 1) / 2 * 8 + 8
      omega
    | ⟨1, _⟩ =>
      show win0_2.index ⟨2 * ((i 0 : Nat) / 8) + 1, ht⟩ 1 * 1 ≤ (i 1 : Nat) ∧ (i 1 : Nat) < win0_2.index ⟨2 * ((i 0 : Nat) / 8) + 1, ht⟩ 1 * 1 + 1
      rw [(hi _).2]
      omega

end Cert.KernelIdeal.Val

end
-- ==== Proof.KernelRun.lean ====
/-
  The kernel's run, read: its results as the masked mean of the per-sample sums.
-/
import proofs.«406488_j60430189855042_3_alg».proof.Proof.KernelArr
import Idealize.ShloMosaic.Lib.StableHlo.Run

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The logits array the region finds is the argument reshaped. -/
theorem V_logits (c : Dev nD) : (V m c main_call0_v1 : S48x11x36864.Idx → EReal) = Cert.Focal.logits (m ((c : Thread nD τ).loc main_arg0)) := by
  show StableHlo.after hostOps0 (fun b => m (c, b)) (Proc.devRef .tc main_call0_v1) = _
  after_results
  rfl

/-- The class array the region finds is the argument reshaped and clamped into `[0, 10]`. -/
theorem V_classes (c : Dev nD) :
    (V m c main_call0_v3 : S48x36864.Idx → BitVec 32) = Cert.Focal.clipped (Cert.Focal.segs (m ((c : Thread nD τ).loc main_arg1))) := by
  show StableHlo.after hostOps0 (fun b => m (c, b)) (Proc.devRef .tc main_call0_v3) = _
  after_results
  rfl

/-! ## After the region: the eighteen operations that turn the output array into the results -/

/-- The second result is the literal `0`, whatever the region left. -/
theorem afterTail_second (c : Dev nD) :
    Pipeline.afterTail₀ cfgs (dats (F := Ideal) m) 0 (V0 m) [hostOps1] c main_v0_1 = constantI S_ 32 0#32 := by
  unfold Pipeline.afterTail₀
  show StableHlo.after hostOps1 _ (Proc.devRef .tc main_v0_1) = _
  after_results
  rfl

/-- From ANY contents `A` of the buffers, the eighteen operations after the region leave in the first result the masked mean
    of the output array `[48, 1]` squeezed to a vector `[48]`, under the labels. -/
theorem tail_of_contents (A : Valuation τ sig (Elt Ideal)) :
    StableHlo.after hostOps1 A (Proc.devRef .tc main_v0_0)
      = Cert.Focal.tail (shapeCast S48 (A (Proc.devRef .tc main_call0_v4) : FVec Ideal S48x1 .f32) shapeCasts_S48x1_S48)
          (A (Proc.devRef .tc main_arg2) : IVec S8x6 32) := by
  after_results
  simp only [StableHlo.TRef.ofBuf, StableHlo.TRef.toBuf, cast_eq]
  unfold Cert.Focal.tail
  rfl

/-- What the operations after the region find in the output array: the per-sample sums. -/
theorem afterRegion_out (c : Dev nD) :
    Pipeline.withArrays (cfgs 0).spec c (V0 m c) (fun w => (dats (F := Ideal) m 0 c).arrAt w (cfgs 0).N) (Proc.devRef .tc main_call0_v4)
      = result m c :=
  (Pipeline.withArrays_arr spec0 launch0.win.arr_inj c (V0 m c) (fun w => (dats (F := Ideal) m 0 c).arrAt w (cfgs 0).N) 2).trans (final m c)

/-- What they find in the labels: the argument, which no window stages and no operation before the region writes. -/
theorem afterRegion_labels (c : Dev nD) :
    Pipeline.withArrays (cfgs 0).spec c (V0 m c) (fun w => (dats (F := Ideal) m 0 c).arrAt w (cfgs 0).N) (Proc.devRef .tc main_arg2)
      = m ((c : Thread nD τ).loc main_arg2) :=
  (Pipeline.withArrays_of_ne spec0 c (V0 m c) (fun w => (dats (F := Ideal) m 0 c).arrAt w (cfgs 0).N) main_arg2
    (by exact (by decide : ∀ w, Pipeline.arrRef spec0 w ≠ main_arg2))).trans (V_main_arg2 m c)

/-- A column `[48, 1]` whose entry depends on its row only, squeezed to a vector `[48]`: entry `i` sits at row-major
    position `i · 1 + 0 = i` of the column. -/
theorem squeeze_rows (f : Fin 48 → EReal) :
    shapeCast S48 (fun y : S48x1.Idx => f (y 0)) shapeCasts_S48x1_S48 = fun i : S48.Idx => f (i 0) := by
  funext i
  refine (shapeCast_apply (fun y : S48x1.Idx => f (y 0)) shapeCasts_S48x1_S48 i (ValueIdx.ix2 (i 0 : Fin 48) (0 : Fin 1)) ?_).trans rfl
  rw [Shape.rowMajor_val_two, Shape.rowMajor_val_one]
  show (i 0).val * 1 + 0 = (i 0).val
  omega

/-- The output array squeezed to a vector is the per-sample sums of the reshaped logits and the clamped classes. -/
theorem sums_vector (c : Dev nD) :
    (shapeCast S48 (result m c : FVec Ideal S48x1 .f32) shapeCasts_S48x1_S48 : FVec Ideal S48 .f32)
      = fun i => Cert.Focal.kerSum (Cert.Focal.logits (m ((c : Thread nD τ).loc main_arg0)))
          (Cert.Focal.clipped (Cert.Focal.segs (m ((c : Thread nD τ).loc main_arg1)))) (i 0) := by
  unfold result
  rw [V_logits m c, V_classes m c]
  exact squeeze_rows _

/-- The first result: the masked mean of the per-sample sums. -/
theorem afterTail_first (c : Dev nD) :
    Pipeline.afterTail₀ cfgs (dats (F := Ideal) m) 0 (V0 m) [hostOps1] c main_v0_0
      = Cert.Focal.tail (fun i => Cert.Focal.kerSum (Cert.Focal.logits (m ((c : Thread nD τ).loc main_arg0)))
            (Cert.Focal.clipped (Cert.Focal.segs (m ((c : Thread nD τ).loc main_arg1)))) (i 0)) (m ((c : Thread nD τ).loc main_arg2)) := by
  unfold Pipeline.afterTail₀
  show StableHlo.after hostOps1 _ (Proc.devRef .tc main_v0_0) = _
  rw [tail_of_contents, afterRegion_out m c, afterRegion_labels m c, sums_vector m c]

/-- THE KERNEL'S RUN at `Ideal`: every weakly fair execution terminates with the first and third results at the masked mean of the
    per-sample sums, the second at the literal `0`, and the arguments unchanged. -/
theorem run : θ_run (defs (F := Ideal)) (onTc (τ := τ) (main (F := Ideal))) ⟨m, fun _ => 0, ρ⟩ fun r => ∀ c : Dev nD,
      r.2.mem ((c : Thread nD τ).loc main_v0_0)
        = Cert.Focal.tail (fun i => Cert.Focal.kerSum (Cert.Focal.logits (m ((c : Thread nD τ).loc main_arg0)))
            (Cert.Focal.clipped (Cert.Focal.segs (m ((c : Thread nD τ).loc main_arg1)))) (i 0)) (m ((c : Thread nD τ).loc main_arg2))
      ∧ r.2.mem ((c : Thread nD τ).loc main_v0_1) = constantI S_ 32 0#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v0_0 (Pipeline.mem_restRefs_of main_v0_0 (by decide) (by decide))).trans (afterTail_first m c),
     ((h c).2 main_v0_1 (Pipeline.mem_restRefs_of main_v0_1 (by decide) (by decide))).trans (afterTail_second m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Val

end
-- ==== Proof.RefValue.lean ====
/-
  The reference's run, read stretch by stretch.

  The fold of @main's 55 operations over the launch contents is taken in six stretches: the reshapes and the class broadcast;
  @take_along_axis in three (the wrap of a negative index, the bounds test, the gather and select); the focal term and the pixel
  sum; the masked mean. Each stretch's result buffer holds the stage function
  of the stretch before (the `val_…` functions, one per operation), so the fold's first result is `val_main_v23` of the three
  arguments, the second the literal `0`, and no operation writes an argument.
-/
import proofs.«406488_j60430189855042_3_alg».proof.Proof.RefRun
import proofs.«406488_j60430189855042_3_alg».proof.Proof.RefRead
import Idealize.ShloMosaic.Lib.Pipeline.Frame

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Stretch A: the logits reshaped, the classes reshaped and broadcast; the labels untouched. -/
theorem stageA (V : Valuation τ sig (Elt F)) :
    after (opsA (F := F)) V (Proc.devRef .tc main_v1) = val_main_v1 (F := F) (V (Proc.devRef .tc main_arg0))
    ∧ after (opsA (F := F)) V (Proc.devRef .tc main_v3) = val_main_v3 (F := F) (V (Proc.devRef .tc main_arg1))
    ∧ after (opsA (F := F)) V (Proc.devRef .tc main_arg2) = V (Proc.devRef .tc main_arg2) := by
  refine ⟨?_, ?_, ?_⟩
  · after_results; rfl
  · after_results; rfl
  · after_results

set_option maxHeartbeats 4000000 in
/-- Stretch B1: @take_along_axis wraps a negative class index. -/
theorem stageB1 (W : Valuation τ sig (Elt F)) (x1 : (⟨S8x6x192x192, .i32⟩ : BufTy).Contents (Elt F))
    (h3 : W (Proc.devRef .tc main_v3) = val_main_v3 (F := F) x1) :
    after (opsB1 (F := F)) W (Proc.devRef .tc main_call0_v5) = val_main_call0_v5 (F := F) x1
    ∧ after (opsB1 (F := F)) W (Proc.devRef .tc main_v1) = W (Proc.devRef .tc main_v1)
    ∧ after (opsB1 (F := F)) W (Proc.devRef .tc main_arg2) = W (Proc.devRef .tc main_arg2) := by
  refine ⟨?_, ?_, ?_⟩
  · after_results
    simp only [TRef.ofBuf, TRef.toBuf, cast_eq]
    rw [h3]
    rfl
  · after_results
  · after_results

set_option maxHeartbeats 4000000 in
/-- Stretch B2: the bounds test of the wrapped index. -/
theorem stageB2 (W : Valuation τ sig (Elt F)) (x1 : (⟨S8x6x192x192, .i32⟩ : BufTy).Contents (Elt F))
    (h5 : W (Proc.devRef .tc main_call0_v5) = val_main_call0_v5 (F := F) x1) :
    after (opsB2 (F := F)) W (Proc.devRef .tc main_call0_v12) = val_main_call0_v12 (F := F) x1
    ∧ after (opsB2 (F := F)) W (Proc.devRef .tc main_call0_v5) = W (Proc.devRef .tc main_call0_v5)
    ∧ after (opsB2 (F := F)) W (Proc.devRef .tc main_v1) = W (Proc.devRef .tc main_v1)
    ∧ after (opsB2 (F := F)) W (Proc.devRef .tc main_arg2) = W (Proc.devRef .tc main_arg2) := by
  refine ⟨?_, ?_, ?_, ?_⟩
  · after_results
    simp only [TRef.ofBuf, TRef.toBuf, cast_eq]
    rw [h5]
    rfl
  · after_results
  · after_results
  · after_results

set_option maxHeartbeats 4000000 in
/-- Stretch B3: the gather, and the select between it and the fill. -/
theorem stageB3 (W : Valuation τ sig (Elt F)) (x0 : (⟨S8x6x11x192x192x1, .f32⟩ : BufTy).Contents (Elt F))
    (x1 : (⟨S8x6x192x192, .i32⟩ : BufTy).Contents (Elt F))
    (h1 : W (Proc.devRef .tc main_v1) = val_main_v1 (F := F) x0)
    (h5 : W (Proc.devRef .tc main_call0_v5) = val_main_call0_v5 (F := F) x1)
    (h12 : W (Proc.devRef .tc main_call0_v12) = val_main_call0_v12 (F := F) x1) :
    after (opsB3 (F := F)) W (Proc.devRef .tc main_v4) = val_main_v4 (F := F) x0 x1
    ∧ after (opsB3 (F := F)) W (Proc.devRef .tc main_arg2) = W (Proc.devRef .tc main_arg2) := by
  refine ⟨?_, ?_⟩
  · after_results
    simp only [TRef.ofBuf, TRef.toBuf, cast_eq]
    rw [h1, h5, h12]
    rfl
  · after_results

set_option maxHeartbeats 4000000 in
/-- Stretch C: the focal term and the sum over pixels, from the gathered logits. -/
theorem stageC (W : Valuation τ sig (Elt F)) (x0 : (⟨S8x6x11x192x192x1, .f32⟩ : BufTy).Contents (Elt F))
    (x1 : (⟨S8x6x192x192, .i32⟩ : BufTy).Contents (Elt F))
    (h4 : W (Proc.devRef .tc main_v4) = val_main_v4 (F := F) x0 x1) :
    after (opsC (F := F)) W (Proc.devRef .tc main_v13) = val_main_v13 (F := F) x0 x1
    ∧ after (opsC (F := F)) W (Proc.devRef .tc main_arg2) = W (Proc.devRef .tc main_arg2) := by
  refine ⟨?_, ?_⟩
  · after_results
    rw [h4]
    rfl
  · after_results

set_option maxHeartbeats 4000000 in
/-- Stretch D: the masked mean, from the per-sample sums and the labels. -/
theorem stageD (W : Valuation τ sig (Elt F)) (x0 : (⟨S8x6x11x192x192x1, .f32⟩ : BufTy).Contents (Elt F))
    (x1 : (⟨S8x6x192x192, .i32⟩ : BufTy).Contents (Elt F)) (x2 : (⟨S8x6, .i32⟩ : BufTy).Contents (Elt F))
    (h13 : W (Proc.devRef .tc main_v13) = val_main_v13 (F := F) x0 x1) (h2 : W (Proc.devRef .tc main_arg2) = x2) :
    after (opsD (F := F)) W (Proc.devRef .tc main_v23) = val_main_v23 (F := F) x0 x1 x2
    ∧ after (opsD (F := F)) W (Proc.devRef .tc main_c_5) = constantI S_ 32 0#32 := by
  refine ⟨?_, ?_⟩
  · after_results
    simp only [TRef.ofBuf, TRef.toBuf, cast_eq]
    rw [h13, h2]
    rfl
  · after_results

/-- The fold's first (and third) result is the last stage of the three arguments; its second is the literal `0`. -/
theorem results (V : Valuation τ sig (Elt F)) :
    after (ops (F := F)) V (Proc.devRef .tc main_v23)
        = val_main_v23 (F := F) (V (Proc.devRef .tc main_arg0)) (V (Proc.devRef .tc main_arg1)) (V (Proc.devRef .tc main_arg2))
    ∧ after (ops (F := F)) V (Proc.devRef .tc main_c_5) = constantI S_ 32 0#32 := by
  obtain ⟨a1, a3, a2⟩ := stageA (F := F) V
  obtain ⟨b5, b1, b2⟩ := stageB1 (F := F) (after opsA V) _ a3
  obtain ⟨c12, c5, c1, c2⟩ := stageB2 (F := F) (after opsB1 (after opsA V)) _ b5
  obtain ⟨d4, d2⟩ := stageB3 (F := F) (after opsB2 (after opsB1 (after opsA V))) _ _ (c1.trans (b1.trans a1)) (c5.trans b5) c12
  obtain ⟨e13, e2⟩ := stageC (F := F) (after opsB3 (after opsB2 (after opsB1 (after opsA V)))) _ _ d4
  have hd := stageD (F := F) (after opsC (after opsB3 (after opsB2 (after opsB1 (after opsA V))))) _ _ (V (Proc.devRef .tc main_arg2)) e13
    (e2.trans (d2.trans (c2.trans (b2.trans a2))))
  show after (opsA ++ (opsB1 ++ (opsB2 ++ (opsB3 ++ (opsC ++ opsD))))) V _ = _ ∧ after (opsA ++ (opsB1 ++ (opsB2 ++ (opsB3 ++ (opsC ++ opsD))))) V _ = _
  rw [StableHlo.after_append, StableHlo.after_append, StableHlo.after_append, StableHlo.after_append, StableHlo.after_append]
  exact hd

/-- No operation writes an argument: the fold leaves the three argument arrays as launched. -/
theorem kept (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  refine ⟨?_, ?_, ?_⟩ <;>
  · refine StableHlo.after_of_forall_not_mem _ _ (List.forall_iff_forall_mem.mp ?_)
    simp only [ops, opsA, opsB1, opsB2, opsB3, opsC, opsD, List.cons_append, List.nil_append, List.Forall, nullary_writes, unary_writes,
      binary_writes, ternary_writes, reshape_writes, Finset.mem_singleton]
    repeat' apply And.intro
    all_goals exact StableHlo.devRef_ne_of_ne (by decide)

end Cert.ReferenceIdeal.RefValue

end
-- ==== Proof.RefSum.lean ====
/-
  The reference's per-sample sums, read at an index.

  For sample `n` the reference sums over all 36864 pixels `k`, from the literal `0.0`, the focal term `(-(w ^ 6.0)) · l` of
  `l = take_along_axis(logits, classes)[n, k]`. With the class word `s = classes[n, k]` in `[0, 10]`: the wrap of a negative index
  leaves `s`; the bounds test `0 ≤ s ∧ s ≤ 10` passes, so the gathered value (not the fill) is selected; and the gather reads
  `logits[n, clamp s, k]` — the two batching axes carry the result's own coordinates, the class axis the clamped start index.
-/
import proofs.«406488_j60430189855042_3_alg».proof.Proof.RefRead
import proofs.«406488_j60430189855042_3_alg».proof.Proof.FocalMath
import Idealize.ShloMosaic.Lib.ReduceAll

noncomputable section

namespace Cert.ReferenceIdeal.RefSum

open Cert.ReferenceIdeal Cert.ReferenceIdeal.Gen Cert.ReferenceIdeal.ReadP
open Idealize.ShloMosaic Idealize.ShloMosaic.ValueIdx

/-! ## The gather -/

/-- The start-indices index `[n, u, p, 0]` of result index `(n, u, p)` (the unit axis's coordinate `u` is `0`). -/
abbrev gIdx (y : S48x1x36864.Idx) : S48x1x36864x1.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨0, Nat.one_pos⟩

local notation "gd" => gather_S48x11x36864_S48x1x36864x1_S48x1x36864_n_1_02_02_1_3_111

/-- The gather at `(n, 0, p)`: the operand at row `n`, pixel `p`, and the class `idx[n, 0, p, 0]` read signed and clamped into
    `[0, 10]`. -/
theorem gather_apply {α : Type} (x : S48x11x36864.Idx → α) (idx : IVec S48x1x36864x1 32) (y : S48x1x36864.Idx) :
    Host.gather gd x idx y
      = x (ix3 (⟨(y 0).val, (y 0).isLt⟩ : Fin 48) (⟨min (idx (gIdx y)).toInt.toNat 10, by omega⟩ : Fin 11) (⟨(y 2).val, (y 2).isLt⟩ : Fin 36864)) := by
  unfold Host.gather
  congr 1
  funext a
  refine Fin.ext ?_
  have hk0 : (0 : Fin 3) ∉ GatherDims.sKept gd := fun h => ((GatherDims.mem_sKept _ _).mp h).2 (by decide)
  have hk1 : (1 : Fin 3) ∉ GatherDims.sKept gd := fun h => ((GatherDims.mem_sKept _ _).mp h).1 (by decide)
  have hk2 : (2 : Fin 3) ∉ GatherDims.sKept gd := fun h => ((GatherDims.mem_sKept _ _).mp h).2 (by decide)
  match a with
  | ⟨0, _⟩ =>
    show GatherDims.start gd y idx 0 + GatherDims.batchCoord gd y 0 + GatherDims.offCoord gd y 0 = (y 0).val
    rw [GatherDims.start_batching _ _ _ _ (by decide), GatherDims.offCoord_eq_zero _ _ _ hk0, Nat.zero_add, Nat.add_zero]
    unfold GatherDims.batchCoord
    rw [dif_pos (by decide)]
    rfl
  | ⟨1, _⟩ =>
    show GatherDims.start gd y idx 1 + GatherDims.batchCoord gd y 1 + GatherDims.offCoord gd y 1 = min (idx (gIdx y)).toInt.toNat 10
    rw [GatherDims.batchCoord_eq_zero _ _ _ (by decide), GatherDims.offCoord_eq_zero _ _ _ hk1, Nat.add_zero]
    unfold GatherDims.start
    rw [dif_pos (show (1 : Fin 3) ∈ GatherDims.startIndexMap gd from by decide)]
    have hsi : GatherDims.siIdx gd y ⟨List.idxOf (1 : Fin 3) (GatherDims.startIndexMap gd),
        List.idxOf_lt_length_iff.2 (by decide)⟩ = gIdx y := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show GatherDims.start gd y idx 2 + GatherDims.batchCoord gd y 2 + GatherDims.offCoord gd y 2 = (y 2).val
    rw [GatherDims.start_batching _ _ _ _ (by decide), GatherDims.offCoord_eq_zero _ _ _ hk2, Nat.zero_add, Nat.add_zero]
    unfold GatherDims.batchCoord
    rw [dif_pos (by decide)]
    rfl

/-! ## The classes as @take_along_axis sees them -/

variable (x0 : (⟨S8x6x11x192x192x1, .f32⟩ : BufTy).Contents (Elt Ideal)) (x1 : (⟨S8x6x192x192, .i32⟩ : BufTy).Contents (Elt Ideal))

/-- After the wrap of negative indices the start index at `w` is still the class word there, when every class word is in
    `[0, 10]`. -/
theorem start_eq (hr : ∀ j, (val_main_v2 (F := Ideal) x1 j).toNat ≤ 10) (w : S48x1x36864x1.Idx) :
    val_main_call0_v5 (F := Ideal) x1 w = val_main_v2 (F := Ideal) x1 (idx_main_v3 (idx_main_call0_v5 w)) := by
  rw [val_main_call0_v5_apply, val_main_call0_v4_apply, val_main_call0_v1_apply, val_main_call0_v3_apply, val_main_v3_apply,
    val_main_call0_v0_apply, val_main_call0_c_apply, val_main_call0_v2_apply, val_main_call0_c_0_apply]
  exact Cert.Focal.wrap_id (hr _)

/-- A left fold by `and` from `1` over `1`s is `1`. -/
theorem foldl_andi_one {ι : Type} (f : ι → BitVec 1) : ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The bounds test passes everywhere, so the gathered value is selected, never the fill. -/
theorem inb_eq_one (hr : ∀ j, (val_main_v2 (F := Ideal) x1 j).toNat ≤ 10) (y : S48x1x36864.Idx) :
    val_main_call0_v12 (F := Ideal) x1 y = 1#1 := by
  unfold val_main_call0_v12
  rw [Host.reduce_eq_foldl]
  refine foldl_andi_one _ _ fun w _ => ?_
  rw [val_main_call0_v11_apply, val_main_call0_v7_apply, val_main_call0_v10_apply, start_eq x1 hr, val_main_call0_v6_apply,
    val_main_call0_c_2_apply, val_main_call0_v9_apply, val_main_call0_v8_apply, val_main_call0_c_1_apply]
  exact Cert.Focal.inb_one (hr _)

/-! ## One pixel, one sample -/

/-- The gathered logit of sample `i`, pixel `k`: the logits at that sample and pixel and at the class the class word names. -/
theorem logpt_apply (hr : ∀ j, (val_main_v2 (F := Ideal) x1 j).toNat ≤ 10) (i : S48.Idx) (k : Fin 36864) :
    val_main_v5 (F := Ideal) x0 x1 (idx_main_v13 i k)
      = val_main_v1 (F := Ideal) x0 (ix3 (i 0) (Cert.Focal.cls (val_main_v2 (F := Ideal) x1 (ix2 (i 0) k))) k) := by
  have hi : (i 0).val < 48 := (i 0).isLt
  have hk : k.val < 36864 := k.isLt
  have hj : idx_main_v3 (idx_main_call0_v5 (gIdx (idx_main_v5 (idx_main_v13 i k)))) = ix2 (i 0) k := by
    funext a
    match a with
    | ⟨0, _⟩ => exact Fin.ext (by
        show ((((((i 0).val * 36864 + k.val) / 36864) * 1 + 0) * 36864 + ((i 0).val * 36864 + k.val) % 36864) * 1 + 0) / 36864 = (i 0).val
        omega)
    | ⟨1, _⟩ => exact Fin.ext (by
        show ((((((i 0).val * 36864 + k.val) / 36864) * 1 + 0) * 36864 + ((i 0).val * 36864 + k.val) % 36864) * 1 + 0) % 36864 = k.val
        omega)
  rw [val_main_v5_apply, val_main_v4_apply, inb_eq_one x1 hr, select_one]
  unfold val_main_call0_v13
  rw [gather_apply]
  refine congrArg (val_main_v1 (F := Ideal) x0) (funext fun a => ?_)
  match a with
  | ⟨0, _⟩ => exact Fin.ext (by show ((i 0).val * 36864 + k.val) / 36864 = (i 0).val; omega)
  | ⟨1, _⟩ => exact Fin.ext (by
      show min (val_main_call0_v5 (F := Ideal) x1 (gIdx (idx_main_v5 (idx_main_v13 i k)))).toInt.toNat 10
        = min (val_main_v2 (F := Ideal) x1 (ix2 (i 0) k)).toInt.toNat 10
      rw [start_eq x1 hr, hj]
      rfl)
  | ⟨2, _⟩ => exact Fin.ext (by show ((i 0).val * 36864 + k.val) % 36864 = k.val; omega)

/-- The focal term of that pixel, by the power function. -/
theorem pix_apply (hr : ∀ j, (val_main_v2 (F := Ideal) x1 j).toNat ≤ 10) (i : S48.Idx) (k : Fin 36864) :
    val_main_v12 (F := Ideal) x0 x1 (idx_main_v13 i k)
      = Cert.Focal.pixR (val_main_v1 (F := Ideal) x0 (ix3 (i 0) (Cert.Focal.cls (val_main_v2 (F := Ideal) x1 (ix2 (i 0) k))) k)) := by
  rw [val_main_v12_apply, val_main_v11_apply, val_main_v10_apply, val_main_v8_apply, val_main_v6_apply, val_main_v7_apply,
    val_main_cst_apply, val_main_v9_apply, val_main_cst_0_apply, logpt_apply x0 x1 hr]
  rfl

/-- THE REFERENCE'S PER-SAMPLE SUMS: from the literal `0.0`, over all pixels, the focal term of the target class's logit. -/
theorem persample (hr : ∀ j, (val_main_v2 (F := Ideal) x1 j).toNat ≤ 10) :
    val_main_v13 (F := Ideal) x0 x1
      = fun i => Cert.Focal.refSum (val_main_v1 (F := Ideal) x0) (val_main_v2 (F := Ideal) x1) (i 0) := by
  funext i
  rw [val_main_v13_apply, val_main_cst_1_apply]
  unfold Cert.Focal.refSum
  exact congrArg₂ (· + ·) rfl (Finset.sum_congr rfl fun k _ => pix_apply x0 x1 hr i k)

end Cert.ReferenceIdeal.RefSum

end
-- ==== Proof.PreFacts.lean ====
/-
  The precondition, read back.

  The precondition is the conjunction of three `jnp.all`s: every logit is finite (`|x| < +inf`), every class index is `≥ 0`,
  every class index is `≤ 10`. Each `all` is a reduction by `and` from `1` into a one-element result, so its being `1` says
  the compared bit is `1` at every index. A finite extended real is a real number; a word that compares `≥ 0` and `≤ 10` as
  a signed integer is one of `0 … 10`. A reshape only renames indices, so the facts pass to the reshaped arrays.
-/
import proofs.«406488_j60430189855042_3_alg».proof.Proof.Gen.Pre_finite_inputs
import proofs.«406488_j60430189855042_3_alg».proof.Proof.Shared
import Idealize.ShloMosaic.Lib.ReduceAll
import Idealize.ShloMosaic.Lib.ValueIdx

noncomputable section

namespace Cert.Focal

open Idealize.ShloMosaic Idealize.ShloMosaic.ValueIdx Cert.Pre_finite_inputs Cert.Pre_finite_inputs.Gen

instance : Subsingleton Cert.Pre_finite_inputs.S_.Idx := ⟨fun a b => funext fun d => d.elim0⟩

/-- An extended real whose absolute value is below `+inf` is a real number. -/
theorem real_of_abs_lt (v : EReal) (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  have h' : Ideal.cmp .olt (max v (-v)) (Ideal.ofBits .f32 0x7F800000#32) = 1#1 := h
  rw [htop] at h'
  simp only [Ideal.cmp, StableHlo.Predicate.ofBool_eq_one_iff, decide_eq_true_eq] at h'
  induction v using EReal.rec with
  | bot => simp at h'
  | coe r => exact ⟨r, rfl⟩
  | top => simp at h'

/-- What the precondition says of the three argument arrays' entries. -/
theorem pre_entries (x0 : FVec Ideal S8x6x11x192x192x1 .f32) (x1 : IVec S8x6x192x192 32) (x2 : IVec S8x6 32)
    (h : Cert.Pre_finite_inputs.fn (F := Ideal) x0 x1 x2 = fun _ => 1#1) :
    (∀ i, ∃ r : ℝ, x0 i = (r : EReal)) ∧ ∀ j, (x1 j).toNat ≤ 10 := by
  have h0 := congrFun h ix0
  dsimp only [Cert.Pre_finite_inputs.fn] at h0
  obtain ⟨h12, h3⟩ := IntOp.andi_eq_one.mp h0
  obtain ⟨h1, h2⟩ := IntOp.andi_eq_one.mp h12
  refine ⟨fun i => ?_, fun j => ?_⟩
  · exact real_of_abs_lt _ (Host.reduce_andi_all _ _ _ _ _ h1 i)
  · exact toNat_le_ten (Host.reduce_andi_all _ _ _ _ _ h2 j) (Host.reduce_andi_all _ _ _ _ _ h3 j)

end Cert.Focal

end
-- ==== Proof.Bridge.lean ====
/-
  The bridge: under the precondition the reference's result is the masked mean of the KERNEL's per-sample sums.

  The reference's last stage is the masked mean of its per-sample sums (the same operations the kernel's program ends with).
  Its per-sample sum is `0 + ∑ₖ` of the focal term, by the power function, of the logit of the class the class word names;
  the kernel's is the sum of the two half sums of the focal term, by the multiplication chain, of the logit the selects pick on
  the clamped class word. With every logit real and every class word in `[0, 10]` these are equal, sample by sample.
-/
import proofs.«406488_j60430189855042_3_alg».proof.Proof.RefSum
import proofs.«406488_j60430189855042_3_alg».proof.Proof.Shared
import proofs.«406488_j60430189855042_3_alg».proof.Proof.PreFacts

noncomputable section

namespace Cert.Focal

open Idealize.ShloMosaic Cert.ReferenceIdeal Cert.ReferenceIdeal.ReadP

variable (x0 : FVec Ideal Cert.KernelIdeal.S8x6x11x192x192x1 .f32) (x1 : IVec Cert.KernelIdeal.S8x6x192x192 32)
  (x2 : IVec Cert.KernelIdeal.S8x6 32)

/-- The reference's last stage is the masked mean of its per-sample sums. -/
theorem ref_tail : val_main_v23 (F := Ideal) x0 x1 x2 = tail (val_main_v13 (F := Ideal) x0 x1) x2 := rfl

/-- Under the precondition it is the masked mean of the kernel's per-sample sums. -/
theorem ref_eq (h : Cert.Pre_finite_inputs.fn (F := Ideal) x0 x1 x2 = fun _ => 1#1) :
    val_main_v23 (F := Ideal) x0 x1 x2 = tail (fun i => kerSum (logits x0) (clipped (segs x1)) (i 0)) x2 := by
  obtain ⟨hfin, hrange⟩ := pre_entries x0 x1 x2 h
  have hr : ∀ j, (val_main_v2 (F := Ideal) x1 j).toNat ≤ 10 := fun j => hrange _
  rw [ref_tail, Cert.ReferenceIdeal.RefSum.persample x0 x1 hr]
  refine congrArg (fun ps => tail ps x2) (funext fun i => ?_)
  exact (kerSum_eq_refSum (logits x0) (segs x1) (clipped (segs x1)) (fun i => hfin _) (fun j => hrange _)
    (fun j => clipped_apply _ j) (i 0)).symm

end Cert.Focal

end
-- ==== Proof.lean ====
/-
  The five claims of the certificate (proof/Defs.lean), under the precondition "every logit finite, every class index in [0, 10]".

  Both programs compute the masked mean, over the samples with a non-zero label, of a per-sample focal-loss sum: for each
  pixel the logit `l` of the pixel's target class enters as `-(1 - exp l)⁶ · l`. The kernel takes the class by eleven nested
  selects on the clamped class index, the sixth power by a multiplication chain, and the pixel sum in two halves accumulated over a
  grid axis; the reference takes the class by a clamped gather, the sixth power by the power function with exponent `6.0`, and the
  pixel sum in one reduction from `0.0`. On real logits and class indices in `[0, 10]` these are the same extended real, sample
  by sample (Proof/FocalMath.lean, Proof/Bridge.lean), and the masked mean is the same function of the per-sample sums on both
  sides (Proof/Shared.lean). The kernel's side is read off its frame run (Proof/KernelArr.lean, Proof/KernelRun.lean), the
  reference's off the fold of its host operations (Proof/RefValue.lean, Proof/RefSum.lean); the precondition is read back in
  Proof/PreFacts.lean. The frames of the two kernel programs are the generated frame certificates; the reference's is its run
  with the results dropped. The ideal pass rewrote nothing, so there is nothing to preserve.
-/
import proofs.«406488_j60430189855042_3_alg».proof.Defs
import proofs.«406488_j60430189855042_3_alg».proof.Proof.Gen.Kernel
import proofs.«406488_j60430189855042_3_alg».proof.Proof.Gen.Kernel.Frame
import proofs.«406488_j60430189855042_3_alg».proof.Proof.Gen.KernelIdeal
import proofs.«406488_j60430189855042_3_alg».proof.Proof.Gen.KernelIdeal.Frame
import proofs.«406488_j60430189855042_3_alg».proof.Proof.Gen.ReferenceIdeal
import proofs.«406488_j60430189855042_3_alg».proof.Proof.Gen.Pre_finite_inputs
import proofs.«406488_j60430189855042_3_alg».proof.Proof.KernelRun
import proofs.«406488_j60430189855042_3_alg».proof.Proof.RefValue
import proofs.«406488_j60430189855042_3_alg».proof.Proof.Bridge
import Idealize.ShloMosaic.Adequacy
import Idealize.ShloMosaic.Init

noncomputable section

namespace Cert.Proof

open Idealize.ShloMosaic Idealize.SL.Sem

/-- The word-level kernel runs and keeps its arguments: its generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs, and none of its operations writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.RefValue.kept (F := Ideal) (StableHlo.launchContents m c)).1,
       (h c Cert.ReferenceIdeal.main_arg1).trans (Cert.ReferenceIdeal.RefValue.kept (F := Ideal) (StableHlo.launchContents m c)).2.1,
       (h c Cert.ReferenceIdeal.main_arg2).trans (Cert.ReferenceIdeal.RefValue.kept (F := Ideal) (StableHlo.launchContents m c)).2.2⟩)
    (Cert.ReferenceIdeal.ValueP.run_after (F := Ideal) m ρ)

/-- Both idealized programs end with the masked mean of the kernel's per-sample sums (the reference's being equal to them under
    the precondition), the literal `0`, and the mean again. -/
theorem algebraic : Cert.algebraic_KernelIdeal_ReferenceIdeal := by
  intro m ρ m' ρ' hpre hagree
  refine ⟨fun c => Cert.Focal.tail (fun i => Cert.Focal.kerSum
      (Cert.Focal.logits (m ((c.tc : Thread Cert.KernelIdeal.nD Cert.KernelIdeal.τ).loc Cert.KernelIdeal.main_arg0)))
      (Cert.Focal.clipped (Cert.Focal.segs (m ((c.tc : Thread Cert.KernelIdeal.nD Cert.KernelIdeal.τ).loc Cert.KernelIdeal.main_arg1)))) (i 0))
      (m ((c.tc : Thread Cert.KernelIdeal.nD Cert.KernelIdeal.τ).loc Cert.KernelIdeal.main_arg2)),
    fun _ => constantI Cert.KernelIdeal.S_ 32 0#32,
    fun c => Cert.Focal.tail (fun i => Cert.Focal.kerSum
      (Cert.Focal.logits (m ((c.tc : Thread Cert.KernelIdeal.nD Cert.KernelIdeal.τ).loc Cert.KernelIdeal.main_arg0)))
      (Cert.Focal.clipped (Cert.Focal.segs (m ((c.tc : Thread Cert.KernelIdeal.nD Cert.KernelIdeal.τ).loc Cert.KernelIdeal.main_arg1)))) (i 0))
      (m ((c.tc : Thread Cert.KernelIdeal.nD Cert.KernelIdeal.τ).loc Cert.KernelIdeal.main_arg2)), ?_, ?_⟩
  · exact (θ_run Cert.KernelIdeal.defs _ _).mono
      (fun r h c => ⟨(h c).1, (h c).2.1, (h c).1, (h c).2.2.1, (h c).2.2.2.1, (h c).2.2.2.2⟩)
      (Cert.KernelIdeal.Val.run m ρ)
  · refine (θ_run Cert.ReferenceIdeal.defs _ _).mono (fun r h c => ?_) (Cert.ReferenceIdeal.ValueP.run_after (F := Ideal) m' ρ')
    obtain ⟨ha0, ha1, ha2⟩ := hagree c
    have hres := Cert.ReferenceIdeal.RefValue.results (F := Ideal) (StableHlo.launchContents m' c)
    have hk := Cert.ReferenceIdeal.RefValue.kept (F := Ideal) (StableHlo.launchContents m' c)
    have e : r.2.mem ((c.tc : Thread Cert.ReferenceIdeal.nD Cert.ReferenceIdeal.τ).loc Cert.ReferenceIdeal.main_v23)
        = Cert.Focal.tail (fun i => Cert.Focal.kerSum
            (Cert.Focal.logits (m ((c.tc : Thread Cert.KernelIdeal.nD Cert.KernelIdeal.τ).loc Cert.KernelIdeal.main_arg0)))
            (Cert.Focal.clipped (Cert.Focal.segs (m ((c.tc : Thread Cert.KernelIdeal.nD Cert.KernelIdeal.τ).loc Cert.KernelIdeal.main_arg1)))) (i 0))
            (m ((c.tc : Thread Cert.KernelIdeal.nD Cert.KernelIdeal.τ).loc Cert.KernelIdeal.main_arg2)) := by
      refine (h c Cert.ReferenceIdeal.main_v23).trans (hres.1.trans ?_)
      show Cert.ReferenceIdeal.ReadP.val_main_v23 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = _
      rw [ha0, ha1, ha2]
      exact Cert.Focal.ref_eq _ _ _ (hpre c)
    exact ⟨e, (h c Cert.ReferenceIdeal.main_c_5).trans hres.2, e, (h c Cert.ReferenceIdeal.main_arg0).trans hk.1,
      (h c Cert.ReferenceIdeal.main_arg1).trans hk.2.1, (h c Cert.ReferenceIdeal.main_arg2).trans hk.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
